-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S512x32768x16 : Shape := ⟨3, ![512, 32768, 16]⟩
abbrev S512 : Shape := ⟨1, ![512]⟩
abbrev S16x32768 : Shape := ⟨2, ![16, 32768]⟩
abbrev S16 : Shape := ⟨1, ![16]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S512x32768x16 : S_.BroadcastsInDim S512x32768x16 (![] : Fin 0 → Fin S512x32768x16.rank)
  reducesTo_S512x32768x16_S_d0_1_2 : S512x32768x16.ReducesTo [0, 1, 2] S_
  bcast_S_S16x32768 : S_.BroadcastsInDim S16x32768 (![] : Fin 0 → Fin S16x32768.rank)
  reducesTo_S16x32768_S_d0_1 : S16x32768.ReducesTo [0, 1] S_

variable [Facts]

def fn {F : FTy → Type} [FloatOps F] (main_arg0 : FVec F S512x32768 .f32) (main_arg1 : FVec F S512x32768x16 .f32) (main_arg2 : IVec S512 32) (main_arg3 : FVec F S16x32768 .f32) (main_arg4 : IVec S16 1) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S512x32768x16 .f32 := Host.absf main_arg1
  let main_cst_0 : FVec F S_ .f32 := constant S_ .f32 0x7F800000#32
  let main_v5 : FVec F S512x32768x16 .f32 := broadcastInDim S512x32768x16 ![] bcast_S_S512x32768x16 main_cst_0
  let main_v6 : IVec S512x32768x16 1 := cmpf .olt main_v4 main_v5
  let main_c_1 : IVec S_ 1 := constantI S_ 1 1#1
  let main_v7 : IVec S_ 1 := (fun x v => Host.reduce IntOp.andi x v reducesTo_S512x32768x16_S_d0_1_2 h_S_) main_v6 main_c_1
  let main_v8 : IVec S_ 1 := andi main_v3 main_v7
  let main_v9 : FVec F S16x32768 .f32 := Host.absf main_arg3
  let main_cst_2 : FVec F S_ .f32 := constant S_ .f32 0x7F800000#32
  let main_v10 : FVec F S16x32768 .f32 := broadcastInDim S16x32768 ![] bcast_S_S16x32768 main_cst_2
  let main_v11 : IVec S16x32768 1 := cmpf .olt main_v9 main_v10
  let main_c_3 : IVec S_ 1 := constantI S_ 1 1#1
  let main_v12 : IVec S_ 1 := (fun x v => Host.reduce IntOp.andi x v reducesTo_S16x32768_S_d0_1 h_S_) main_v11 main_c_3
  let main_v13 : IVec S_ 1 := andi main_v8 main_v12
  main_v13
-- ==== Kernel.lean ====
abbrev S512x32768 : Shape := ⟨2, ![512, 32768]⟩
abbrev S512x32768x16 : Shape := ⟨3, ![512, 32768, 16]⟩
abbrev S512 : Shape := ⟨1, ![512]⟩
abbrev S16x32768 : Shape := ⟨2, ![16, 32768]⟩
abbrev S16 : Shape := ⟨1, ![16]⟩
abbrev S256x128x16 : Shape := ⟨3, ![256, 128, 16]⟩
abbrev S256x128 : Shape := ⟨2, ![256, 128]⟩
abbrev S256 : Shape := ⟨1, ![256]⟩
abbrev S16x128 : Shape := ⟨2, ![16, 128]⟩
abbrev S256x16 : Shape := ⟨2, ![256, 16]⟩
abbrev S256x1 : Shape := ⟨2, ![256, 1]⟩
abbrev S256x1x16 : Shape := ⟨3, ![256, 1, 16]⟩
abbrev S512x1 : Shape := ⟨2, ![512, 1]⟩
abbrev S1x16 : Shape := ⟨2, ![1, 16]⟩
abbrev S512x16 : Shape := ⟨2, ![512, 16]⟩
abbrev S_ : Shape := ⟨0, ![]⟩
abbrev S16x1 : Shape := ⟨2, ![16, 1]⟩

abbrev nBuf : Space → Nat
  | .hbm => 34
  | .vmem => 9
  | .smem => 0
  | _ => 0

abbrev bufTy : (tb : Table) → Fin (tcTables nBuf tb) → BufTy
  | .hbm, ⟨0, _⟩ => ⟨S512x32768, .f32⟩
  | .hbm, ⟨1, _⟩ => ⟨S512x32768x16, .f32⟩
  | .hbm, ⟨2, _⟩ => ⟨S512, .i32⟩
  | .hbm, ⟨3, _⟩ => ⟨S16x32768, .f32⟩
  | .hbm, ⟨4, _⟩ => ⟨S16, .i1⟩
  | .hbm, ⟨5, _⟩ => ⟨S16x32768, .f32⟩
  | .hbm, ⟨6, _⟩ => ⟨S512x1, .i32⟩
  | .hbm, ⟨7, _⟩ => ⟨S1x16, .i32⟩
  | .hbm, ⟨8, _⟩ => ⟨S512x16, .i32⟩
  | .hbm, ⟨9, _⟩ => ⟨S512x16, .i32⟩
  | .hbm, ⟨10, _⟩ => ⟨S512x16, .i1⟩
  | .hbm, ⟨11, _⟩ => ⟨S512x16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x32768, .f32⟩
  | .hbm, ⟨19, _⟩ => ⟨S16x32768, .f32⟩
  | .hbm, ⟨20, _⟩ => ⟨S_, .f32⟩
  | .hbm, ⟨21, _⟩ => ⟨S16, .f32⟩
  | .hbm, ⟨22, _⟩ => ⟨S16, .i1⟩
  | .hbm, ⟨23, _⟩ => ⟨S16x32768, .f32⟩
  | .hbm, ⟨24, _⟩ => ⟨S_, .f32⟩
  | .hbm, ⟨25, _⟩ => ⟨S16x32768, .f32⟩
  | .hbm, ⟨26, _⟩ => ⟨S16x32768, .f32⟩
  | .hbm, ⟨27, _⟩ => ⟨S16x32768, .f32⟩
  | .hbm, ⟨28, _⟩ => ⟨S16x1, .i1⟩
  | .hbm, ⟨29, _⟩ => ⟨S16x32768, .i1⟩
  | .hbm, ⟨30, _⟩ => ⟨S16x32768, .f32⟩
  | .hbm, ⟨31, _⟩ => ⟨S16x1, .i1⟩
  | .hbm, ⟨32, _⟩ => ⟨S16x32768, .i1⟩
  | .hbm, ⟨33, _⟩ => ⟨S16x32768, .f32⟩
  | .local _ .vmem, ⟨0, _⟩ => ⟨S256x128x16, .f32⟩
  | .local _ .vmem, ⟨1, _⟩ => ⟨S256x128x16, .f32⟩
  | .local _ .vmem, ⟨2, _⟩ => ⟨S256x128, .f32⟩
  | .local _ .vmem, ⟨3, _⟩ => ⟨S256x128, .f32⟩
  | .local _ .vmem, ⟨4, _⟩ => ⟨S256, .i32⟩
  | .local _ .vmem, ⟨5, _⟩ => ⟨S256, .i32⟩
  | .local _ .vmem, ⟨6, _⟩ => ⟨S16x128, .f32⟩
  | .local _ .vmem, ⟨7, _⟩ => ⟨S16x128, .f32⟩
  | .local _ .vmem, ⟨8, _⟩ => ⟨S16x128, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_call2_v0 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![256, 2], ![false, false]⟩

def k0_cond2 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S256x128x16_S256x128x16_0_0_0 : ∀ a, (![0, 0, 0] : Fin 3 → Nat) a + S256x128x16.size a ≤ S256x128x16.size a
  h_S256x128x16 : 0 < S256x128x16.numel
  inb_S256_S256_0 : ∀ a, (![0] : Fin 1 → Nat) a + S256.size a ≤ S256.size a
  h_S256 : 0 < S256.numel
  iota_S256x16_d1_w32 : S256x16.Iotas .tc 32 [1]
  shapeCasts_S256_S256x1 : S256.ShapeCasts S256x1
  broadcasts_S256x1_S256x16 : S256x1.Broadcasts S256x16
  natLt_1_32 : 1 < 32
  shapeCasts_S256x16_S256x1x16 : S256x16.ShapeCasts S256x1x16
  broadcasts_S256x1x16_S256x128x16 : S256x1x16.Broadcasts S256x128x16
  reduces_S256x128x16_S256x128 : S256x128x16.Reduces [2] S256x128
  inb_S256x128_S256x128_0_0 : ∀ a, (![0, 0] : Fin 2 → Nat) a + S256x128.size a ≤ S256x128.size a
  h_S256x128 : 0 < S256x128.numel
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  reducesTo_S512x16_S16_d0 : S512x16.ReducesTo [0] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x32768_0_1 : S16x1.BroadcastsInDim S16x32768 (![0, 1] : Fin 2 → Fin S16x32768.rank)
  bcast_S_S16x32768 : S_.BroadcastsInDim S16x32768 (![] : Fin 0 → Fin S16x32768.rank)
  dot_S256x16_S256x128_S16x128_0_0_1_1_n_n_wf : DotDims.WF S256x16 S256x128 S16x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x16.size a ≤ S512x32768x16.size a
  hwx0_0 : ∀ i : grid0.Coords, EltTy.bits .f32 = 32 ∨ (Rect.block (s := S512x32768x16) S256x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S512x32768.size a
  hwx0_1 : ∀ i : grid0.Coords, EltTy.bits .f32 = 32 ∨ (Rect.block (s := S512x32768) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S512.size a
  hwx0_2 : ∀ i : grid0.Coords, EltTy.bits .i32 = 32 ∨ (Rect.block (s := S512) S256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x32768.size a
  hwx0_3 : ∀ i : grid0.Coords, EltTy.bits .f32 = 32 ∨ (Rect.block (s := S16x32768) S16x128.size (cc0_transform_3 i) (hinb0_3 i)).WholeWords (EltTy.packing .f32)

variable [Facts₀]

def dot_S256x16_S256x128_S16x128_0_0_1_1_n_n : DotDims S256x16 S256x128 S16x128 where
  lhsContracting := [0]
  rhsContracting := [0]
  lhsNonContracting := [1]
  rhsNonContracting := [1]
  lhsBatch := []
  rhsBatch := []
  wf := dot_S256x16_S256x128_S16x128_0_0_1_1_n_n_wf

abbrev win0_0 : Pipeline.Window sig grid0 :=
  Pipeline.Window.ofSpec (Memref.whole main_arg1) S256x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x32768 : Shape := ⟨2, ![512, 32768]⟩
abbrev S512x32768x16 : Shape := ⟨3, ![512, 32768, 16]⟩
abbrev S512 : Shape := ⟨1, ![512]⟩
abbrev S16x32768 : Shape := ⟨2, ![16, 32768]⟩
abbrev S16 : Shape := ⟨1, ![16]⟩
abbrev S512x1x1 : Shape := ⟨3, ![512, 1, 1]⟩
abbrev S_ : Shape := ⟨0, ![]⟩
abbrev S1 : Shape := ⟨1, ![1]⟩
abbrev S1x1x1 : Shape := ⟨3, ![1, 1, 1]⟩
abbrev S512x1 : Shape := ⟨2, ![512, 1]⟩
abbrev S512x32768x1 : Shape := ⟨3, ![512, 32768, 1]⟩
abbrev S16x1 : Shape := ⟨2, ![16, 1]⟩

abbrev nBuf : Space → Nat
  | .hbm => 61
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x32768x16, .f32⟩
  | .hbm, ⟨2, _⟩ => ⟨S512, .i32⟩
  | .hbm, ⟨3, _⟩ => ⟨S16x32768, .f32⟩
  | .hbm, ⟨4, _⟩ => ⟨S16, .i1⟩
  | .hbm, ⟨5, _⟩ => ⟨S512x1x1, .i32⟩
  | .hbm, ⟨6, _⟩ => ⟨S_, .i32⟩
  | .hbm, ⟨7, _⟩ => ⟨S512x1x1, .i32⟩
  | .hbm, ⟨8, _⟩ => ⟨S512x1x1, .i1⟩
  | .hbm, ⟨9, _⟩ => ⟨S_, .i32⟩
  | .hbm, ⟨10, _⟩ => ⟨S512x1x1, .i32⟩
  | .hbm, ⟨11, _⟩ => ⟨S512x1x1, .i32⟩
  | .hbm, ⟨12, _⟩ => ⟨S512x1x1, .i32⟩
  | .hbm, ⟨13, _⟩ => ⟨S1, .i32⟩
  | .hbm, ⟨14, _⟩ => ⟨S_, .i32⟩
  | .hbm, ⟨15, _⟩ => ⟨S512x1x1, .i32⟩
  | .hbm, ⟨16, _⟩ => ⟨S512x1x1, .i1⟩
  | .hbm, ⟨17, _⟩ => ⟨S1x1x1, .i32⟩
  | .hbm, ⟨18, _⟩ => ⟨S512x1x1, .i32⟩
  | .hbm, ⟨19, _⟩ => ⟨S512x1x1, .i1⟩
  | .hbm, ⟨20, _⟩ => ⟨S512x1x1, .i1⟩
  | .hbm, ⟨21, _⟩ => ⟨S_, .i1⟩
  | .hbm, ⟨22, _⟩ => ⟨S512x1, .i1⟩
  | .hbm, ⟨23, _⟩ => ⟨S512x32768x1, .f32⟩
  | .hbm, ⟨24, _⟩ => ⟨S512x32768x1, .i1⟩
  | .hbm, ⟨25, _⟩ => ⟨S_, .f32⟩
  | .hbm, ⟨26, _⟩ => ⟨S512x32768x1, .f32⟩
  | .hbm, ⟨27, _⟩ => ⟨S512x32768x1, .f32⟩
  | .hbm, ⟨28, _⟩ => ⟨S512x32768, .f32⟩
  | .hbm, ⟨29, _⟩ => ⟨S512x32768, .f32⟩
  | .hbm, ⟨30, _⟩ => ⟨S512x32768, .f32⟩
  | .hbm, ⟨31, _⟩ => ⟨S_, .f32⟩
  | .hbm, ⟨32, _⟩ => ⟨S16x32768, .f32⟩
  | .hbm, ⟨33, _⟩ => ⟨S512x1, .i32⟩
  | .hbm, ⟨34, _⟩ => ⟨S16x32768, .f32⟩
  | .hbm, ⟨35, _⟩ => ⟨S_, .f32⟩
  | .hbm, ⟨36, _⟩ => ⟨S512, .f32⟩
  | .hbm, ⟨37, _⟩ => ⟨S_, .f32⟩
  | .hbm, ⟨38, _⟩ => ⟨S16, .f32⟩
  | .hbm, ⟨39, _⟩ => ⟨S512x1, .i32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16x1, .f32⟩
  | .hbm, ⟨45, _⟩ => ⟨S16x32768, .f32⟩
  | .hbm, ⟨46, _⟩ => ⟨S16x32768, .f32⟩
  | .hbm, ⟨47, _⟩ => ⟨S_, .f32⟩
  | .hbm, ⟨48, _⟩ => ⟨S16, .f32⟩
  | .hbm, ⟨49, _⟩ => ⟨S16, .i1⟩
  | .hbm, ⟨50, _⟩ => ⟨S16x32768, .f32⟩
  | .hbm, ⟨51, _⟩ => ⟨S_, .f32⟩
  | .hbm, ⟨52, _⟩ => ⟨S16x32768, .f32⟩
  | .hbm, ⟨53, _⟩ => ⟨S16x32768, .f32⟩
  | .hbm, ⟨54, _⟩ => ⟨S16x32768, .f32⟩
  | .hbm, ⟨55, _⟩ => ⟨S16x1, .i1⟩
  | .hbm, ⟨56, _⟩ => ⟨S16x32768, .i1⟩
  | .hbm, ⟨57, _⟩ => ⟨S16x32768, .f32⟩
  | .hbm, ⟨58, _⟩ => ⟨S16x1, .i1⟩
  | .hbm, ⟨59, _⟩ => ⟨S16x32768, .i1⟩
  | .hbm, ⟨60, _⟩ => ⟨S16x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call1_v0 : Ref sig .tc := ⟨.hbm, 56, rfl⟩
abbrev main_v24 : Ref sig .tc := ⟨.hbm, 57, rfl⟩
abbrev main_v25 : Ref sig .tc := ⟨.hbm, 58, rfl⟩
abbrev main_call2_v0 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S512_S512x1x1_0 : S512.BroadcastsInDim S512x1x1 (![0] : Fin 1 → Fin S512x1x1.rank)
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  h_S_ : 0 < S_.numel
  bcast_S512x1_S512x32768x1_0_2 : S512x1.BroadcastsInDim S512x32768x1 (![0, 2] : Fin 2 → Fin S512x32768x1.rank)
  bcast_S_S512x32768x1 : S_.BroadcastsInDim S512x32768x1 (![] : Fin 0 → Fin S512x32768x1.rank)
  shapeCasts_S512x32768x1_S512x32768 : S512x32768x1.ShapeCasts S512x32768
  bcast_S_S16x32768 : S_.BroadcastsInDim S16x32768 (![] : Fin 0 → Fin S16x32768.rank)
  bcast_S512_S512x1_0 : S512.BroadcastsInDim S512x1 (![0] : Fin 1 → Fin S512x1.rank)
  bcast_S_S512 : S_.BroadcastsInDim S512 (![] : Fin 0 → Fin S512.rank)
  bcast_S_S16 : S_.BroadcastsInDim S16 (![] : Fin 0 → Fin S16.rank)
  bcast_S16_S16x1_0 : S16.BroadcastsInDim S16x1 (![0] : Fin 1 → Fin S16x1.rank)
  bcast_S16x1_S16x32768_0_1 : S16x1.BroadcastsInDim S16x32768 (![0, 1] : Fin 2 → Fin S16x32768.rank)
  gather_S512x32768x16_S512x1x1_S512x32768x1_1_2_0_0_2_2_1327681_wf : GatherDims.WF S512x32768x16 S512x1x1 S512x32768x1 [1] [2] [0] [2] [0] 2 ![1, 32768, 1]
  scatter_S16x32768_S512x1_S512x32768_1_0_0_1_wf : ScatterDims.WF S16x32768 S512x1 S512x32768 [1] [0] [0] 1
  scatter_S16_S512x1_S512_n_0_0_1_wf : ScatterDims.WF S16 S512x1 S512 [] [0] [0] 1

variable [Facts₀]

def gather_S512x32768x16_S512x1x1_S512x32768x1_1_2_0_0_2_2_1327681 : GatherDims S512x32768x16 S512x1x1 S512x32768x1 where
  offsetDims := [1]
  collapsedSliceDims := [2]
  operandBatchingDims := [0]
  startIndicesBatchingDims := [0]
  startIndexMap := [2]
  indexVectorDim := 2
  sliceSizes := ![1, 32768, 1]
  wf := gather_S512x32768x16_S512x1x1_S512x32768x1_1_2_0_0_2_2_1327681_wf
def scatter_S16x32768_S512x1_S512x32768_1_0_0_1 : ScatterDims S16x32768 S512x1 S512x32768 where
  updateWindowDims := [1]
  insertedWindowDims := [0]
  scatterDimsToOperandDims := [0]
  indexVectorDim := 1
  wf := scatter_S16x32768_S512x1_S512x32768_1_0_0_1_wf
def scatter_S16_S512x1_S512_n_0_0_1 : ScatterDims S16 S512x1 S512 where
  updateWindowDims := []
  insertedWindowDims := [0]
  scatterDimsToOperandDims := [0]
  indexVectorDim := 1
  wf := scatter_S16_S512x1_S512_n_0_0_1_wf

class Facts : Prop extends Facts₀ where

variable [Facts]
-- ==== Proof.KernelPieces.lean ====
/-
  What the kernel body leaves behind at a grid point, by case.

  The body keeps a 16 x 128 accumulator in a scratch buffer across the two sample blocks of one column block. Its stores
  are three: at the first sample block it first stores ZERO into the accumulator; at every block it reads the accumulator
  back, adds the block's contribution and stores the sum; at the last sample block it copies the accumulator to the output.

  * First sample block (the zero store taken, the copy not): the accumulator ends at the accumulate store's value computed
    over what the zero store had just written — `scratch_first`.
  * Last sample block (the copy taken, the zero store not): the output block ends at the accumulate store's value computed
    over what the point before left in the accumulator — `out_last`.

  Both are stated for any float family: each is the read-back of the stores that cover the buffer, the loads being reads of
  whole buffers.
-/
import proofs.«423744_j26207890440396_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- After a first sample block the accumulator holds the accumulate store's value over the ZERO block. -/
theorem scratch_first (c : Dev nD) (i : grid0.Coords) (a2 : Memref sig .tc .vmem S256x128x16 .f32) (h2 : a2.IsWhole)
    (a3 : Memref sig .tc .vmem S256x128 .f32) (h3 : a3.IsWhole) (a4 : Memref sig .tc .vmem S256 .i32) (h4 : a4.IsWhole)
    (a5 : Memref sig .tc .vmem S16x128 .f32) (h5 : a5.IsWhole) (a6 : Memref sig .tc .vmem S16x128 .f32) (h6 : a6.IsWhole)
    (hc0 : cond0_0 i) (hc1 : ¬cond0_1 i) (x0 : Vec F S256x128x16 .f32) (x1 : Vec F S256x128 .f32) (x2 : Vec F S256 .i32) :
    sout0_A_0 c i a2 h2 a3 h3 a4 h4 a5 h5 a6 h6 hc0 hc1 x0 x1 x2 = k0_pay2 x0 x2 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S16x128) hz2, View.readCov_unit_zero (S := S16x128) _ hz2]
  simp only [View.readAt_eq_ld, h2.read_unread, h3.read_unread, h4.read_unread,
    View.ld_unit_zero (S := S256x128x16) hz3, View.ld_unit_zero (S := S256) hz1, View.ld_unit_zero (S := S256x128) hz2]

/-- After a last sample block the output block holds the accumulate store's value over the accumulator the point before left. -/
theorem out_last (c : Dev nD) (i : grid0.Coords) (a2 : Memref sig .tc .vmem S256x128x16 .f32) (h2 : a2.IsWhole)
    (a3 : Memref sig .tc .vmem S256x128 .f32) (h3 : a3.IsWhole) (a4 : Memref sig .tc .vmem S256 .i32) (h4 : a4.IsWhole)
    (a5 : Memref sig .tc .vmem S16x128 .f32) (h5 : a5.IsWhole) (a6 : Memref sig .tc .vmem S16x128 .f32) (h6 : a6.IsWhole)
    (hc0 : ¬cond0_0 i) (hc1 : cond0_1 i) (x0 : Vec F S256x128x16 .f32) (x1 : Vec F S256x128 .f32) (x2 : Vec F S256 .i32)
    (xs : Vec F S16x128 .f32) :
    out0_B_3 c i a2 h2 a3 h3 a4 h4 a5 h5 a6 h6 hc0 hc1 x0 x1 x2 xs = k0_pay2 x0 x2 x1 xs := by
  unfold out0_B_3
  rw [View.read_writes_eq_canon _ _ _ (cover0_B_3 c i a2 h2 a3 h3 a4 h4 a5 h5 a6 h6 hc0 hc1 x0 x1 x2 xs)]
  unfold kernelRun0_B
  dsimp only
  sl_unfold_words
  rw [View.canon_unit_zero hz2, View.readCov_unit_zero (S := S16x128) _ hz2]
  simp only [View.readAt_eq_ld, h2.read_unread, h3.read_unread, h4.read_unread, h6.read_unread,
    View.ld_unit_zero (S := S256x128x16) hz3, View.ld_unit_zero (S := S256) hz1, View.ld_unit_zero (S := S256x128) hz2,
    View.ld_unit_zero (S := S16x128) hz2]

end Cert.KernelIdeal.Pieces
end
-- ==== Proof.SegmentSums.lean ====
/-
  Sums over the samples of one class.

  A label is a 32-bit word; class `c` (of 16) is the word of the number `c`. A sample `b` belongs to class `c` when its
  label IS that word — a label that is no class's word (negative, or 16 and more) belongs to none. Both programs add up,
  for each class, a quantity over the samples of that class, and they pick the samples in two ways:

  * by a ONE-HOT ROW: multiply by `ind l c` (one when the label `l` is class `c`, else zero) and add over ALL samples; the
    same row, contracted against the sample's 16 weights, picks the weight of the sample's own class (`onehot_collapse`);
  * by a SCATTER-ADD along the labels: an update row lands on the row its label names, read signed, and is DROPPED when
    that is no row of the target (`resultIdx2_eq_some_iff`, `resultIdx1_eq_some_iff`), so the target's row `c` receives
    exactly the samples whose label is class `c` (`scatter2_sum`, `scatter1_sum`).

  Over the extended reals `1 * x = x`, `0 * x = 0` and `0 + x = x` hold of every `x`, an infinity included, and a finite
  sum may be taken in any order and split in two halves (`sum_halves`): nothing here asks the summands to be finite.
-/
import Idealize.ShloMosaic.Lib.ValueIdx
import Idealize.ShloMosaic.Lib.ValueIdxRank1
import Idealize.ShloMosaic.PureOps.Ideal.Laws
import Idealize.ShloMosaic.Lib.StableHlo.Predicate

noncomputable section

namespace Cert.Segments

open Idealize.ShloMosaic Idealize.ShloMosaic.ValueIdx
open scoped BigOperators

/-! ## Classes and the indicator -/

/-- The word of class `c`. -/
abbrev cls (c : Fin 16) : BitVec 32 := BitVec.ofNat 32 c.val

theorem cls_toNat (c : Fin 16) : (cls c).toNat = c.val := by
  have := c.isLt
  simp only [cls, BitVec.toNat_ofNat]
  omega

/-- Two classes with one word are one class. -/
theorem cls_inj {c c' : Fin 16} (h : cls c = cls c') : c = c' :=
  Fin.ext (by rw [← cls_toNat c, ← cls_toNat c', h])

/-- A class's word read as a signed number is the class's number. -/
theorem cls_toInt (c : Fin 16) : (cls c).toInt = (c.val : Int) := by
  have h := c.isLt
  have e := BitVec.toInt_eq_toNat_cond (cls c)
  rw [cls_toNat] at e
  rw [e, if_pos (by omega)]

/-- A label read signed is the number of class `c` exactly when it is that class's word. -/
theorem toInt_eq_iff (l : BitVec 32) (c : Fin 16) : l.toInt = (c.val : Int) ↔ l = cls c :=
  ⟨fun h => BitVec.eq_of_toInt_eq (h.trans (cls_toInt c).symm), fun h => h ▸ cls_toInt c⟩

/-- One when the label is class `c`, else zero. -/
def ind (l : BitVec 32) (c : Fin 16) : EReal := if l = cls c then 1 else 0

/-- The kernel's one-hot entry: the equality bit, widened, converted as a signed integer. -/
theorem sitofp_onehot (l : BitVec 32) (c : Fin 16) (h : 1 < 32) :
    FloatOps.sitofp (F := Ideal) .f32 ((IntOp.cmpi .eq l (cls c)).setWidth 32) = ind l c := by
  unfold ind
  by_cases e : l = cls c
  · rw [if_pos e, StableHlo.Predicate.cmpi_eq_iff.mpr e]
    show (((BitVec.setWidth 32 (1#1)).toInt : ℝ) : EReal) = 1
    have : (BitVec.setWidth 32 (1#1)).toInt = 1 := by decide
    rw [this]; norm_num
  · rw [if_neg e, eq_zero_of_ne_one (fun h' => e (StableHlo.Predicate.cmpi_eq_iff.mp h'))]
    show (((BitVec.setWidth 32 (0#1)).toInt : ℝ) : EReal) = 0
    have : (BitVec.setWidth 32 (0#1)).toInt = 0 := by decide
    rw [this]; norm_num

/-- The host's one-hot entry: the equality bit converted as an unsigned integer. -/
theorem uitofp_onehot (l : BitVec 32) (c : Fin 16) :
    FloatOps.uitofp (F := Ideal) .f32 (IntOp.cmpi .eq l (cls c)) = ind l c := by
  unfold ind
  by_cases e : l = cls c
  · rw [if_pos e, StableHlo.Predicate.cmpi_eq_iff.mpr e]
    show ((((1#1 : BitVec 1)).toNat : ℝ) : EReal) = 1
    norm_num
  · rw [if_neg e, eq_zero_of_ne_one (fun h' => e (StableHlo.Predicate.cmpi_eq_iff.mp h'))]
    show ((((0#1 : BitVec 1)).toNat : ℝ) : EReal) = 0
    norm_num

/-- The magnitude of an extended real. -/
abbrev mag (x : EReal) : EReal := max x (-x)

/-- A one-hot row picks, out of a sample's 16 weights, the weight of the sample's own class — and the sample's term is
    kept for that class only. -/
theorem onehot_collapse (l : BitVec 32) (c : Fin 16) (s : EReal) (x : Fin 16 → EReal) :
    ind l c * mag (s * ∑ c' : Fin 16, x c' * ind l c') = if l = cls c then mag (s * x c) else 0 := by
  by_cases h : l = cls c
  · have hs : ∑ c' : Fin 16, x c' * ind l c' = x c := by
      rw [Finset.sum_eq_single c]
      · unfold ind; rw [if_pos h, mul_one]
      · intro b _ hb
        unfold ind
        rw [if_neg (fun e => hb (cls_inj (e.symm.trans h))), mul_zero]
      · intro hc; exact absurd (Finset.mem_univ c) hc
    unfold ind at hs ⊢
    rw [if_pos h, if_pos h, one_mul, hs]
  · unfold ind
    rw [if_neg h, if_neg h, zero_mul]

/-- A sum over the 512 samples is the sum over the first 256 plus the sum over the last 256. -/
theorem sum_halves (f : Fin 512 → EReal) :
    ∑ b : Fin 512, f b
      = (∑ k : Fin 256, f ⟨k.val, by have := k.isLt; omega⟩) + ∑ k : Fin 256, f ⟨256 + k.val, by have := k.isLt; omega⟩ :=
  Fin.sum_univ_add (a := 256) (b := 256) f

/-- Adding up the 0/1 indicator over the samples counts the class's samples; the same as a sum of ones over them. -/
theorem sum_ind_eq (l : Fin 512 → BitVec 32) (c : Fin 16) :
    ∑ b : Fin 512, ind (l b) c = ∑ b : Fin 512, (if l b = cls c then (1 : EReal) else 0) := rfl

/-! ## The scatter-add along the labels, two-dimensional updates -/

abbrev T16x32768 : Shape := ⟨2, ![16, 32768]⟩
abbrev T512x1 : Shape := ⟨2, ![512, 1]⟩
abbrev T512x32768 : Shape := ⟨2, ![512, 32768]⟩
abbrev T16 : Shape := ⟨1, ![16]⟩
abbrev T512 : Shape := ⟨1, ![512]⟩

/-- The dimension numbers of `segment_sum` of rows: update row `b` goes, whole, to the target row its index names. -/
def rowsScatter : ScatterDims T16x32768 T512x1 T512x32768 where
  updateWindowDims := [1]
  insertedWindowDims := [0]
  scatterDimsToOperandDims := [0]
  indexVectorDim := 1

theorem rows_start0 (j : T512x32768.Idx) (idx : IVec T512x1 32) :
    rowsScatter.start j idx 0 = (idx (ix2 (j 0) 0)).toInt := by
  unfold ScatterDims.start
  rw [dif_pos (by decide)]
  have e : rowsScatter.siIdx j ⟨List.idxOf (0 : Fin T16x32768.rank) rowsScatter.scatterDimsToOperandDims,
      List.idxOf_lt_length_iff.2 (by decide)⟩ = ix2 (j 0) 0 := by
    funext a
    match a with
    | ⟨0, _⟩ => rfl
    | ⟨1, _⟩ => rfl
  exact congrArg (fun t => (idx t).toInt) e

theorem rows_start1 (j : T512x32768.Idx) (idx : IVec T512x1 32) : rowsScatter.start j idx 1 = 0 := rfl
theorem rows_window0 (j : T512x32768.Idx) : rowsScatter.window j 0 = 0 := rfl
theorem rows_window1 (j : T512x32768.Idx) : rowsScatter.window j 1 = (j 1).val := rfl

/-- Update entry `(b, v')` lands on target entry `(c, v)` exactly when row `b`'s index, read signed, is `c` and
    `v' = v`; an index that names no row of the target lands nowhere. -/
theorem resultIdx2_eq_some_iff (j : T512x32768.Idx) (idx : IVec T512x1 32) (i : T16x32768.Idx) :
    rowsScatter.resultIdx? j idx = some i ↔ (idx (ix2 (j 0) 0)).toInt = ((i 0).val : Int) ∧ j 1 = i 1 := by
  have hi0 : (i 0).val < 16 := (i 0).isLt
  have hi1 : (i 1).val < 32768 := (i 1).isLt
  have hj1 : (j 1).val < 32768 := (j 1).isLt
  have s0 : (T16x32768.size 0 : Nat) = 16 := rfl
  have s1 : (T16x32768.size 1 : Nat) = 32768 := rfl
  unfold ScatterDims.resultIdx?
  by_cases hh : ∀ a, 0 ≤ rowsScatter.start j idx a + rowsScatter.window j a
      ∧ rowsScatter.start j idx a + rowsScatter.window j a < T16x32768.size a
  · rw [dif_pos hh]
    constructor
    · intro h
      have h' := Option.some.inj h
      have h0 : (rowsScatter.start j idx 0 + rowsScatter.window j 0).toNat = (i 0).val := congrArg Fin.val (congrFun h' 0)
      have h1 : (rowsScatter.start j idx 1 + rowsScatter.window j 1).toNat = (i 1).val := congrArg Fin.val (congrFun h' 1)
      have r0 := hh 0
      rw [rows_start0, rows_window0] at h0 r0
      rw [rows_start1, rows_window1] at h1
      exact ⟨by omega, Fin.ext (by omega)⟩
    · rintro ⟨h0, h1⟩
      congr 1
      funext a
      match a with
      | ⟨0, _⟩ =>
        apply Fin.ext
        show (rowsScatter.start j idx 0 + rowsScatter.window j 0).toNat = (i 0).val
        rw [rows_start0, rows_window0, h0]; omega
      | ⟨1, _⟩ =>
        apply Fin.ext
        show (rowsScatter.start j idx 1 + rowsScatter.window j 1).toNat = (i 1).val
        rw [rows_start1, rows_window1, ← h1]; omega
  · rw [dif_neg hh]
    constructor
    · intro h; exact absurd h (by simp)
    · rintro ⟨h0, h1⟩
      exfalso
      apply hh
      intro a
      match a with
      | ⟨0, _⟩ =>
        show 0 ≤ rowsScatter.start j idx 0 + rowsScatter.window j 0
          ∧ rowsScatter.start j idx 0 + rowsScatter.window j 0 < T16x32768.size 0
        rw [rows_start0, rows_window0, h0]
        refine ⟨by omega, ?_⟩
        show ((i 0).val : Int) + ((0 : Nat) : Int) < ((16 : Nat) : Int)
        omega
      | ⟨1, _⟩ =>
        show 0 ≤ rowsScatter.start j idx 1 + rowsScatter.window j 1
          ∧ rowsScatter.start j idx 1 + rowsScatter.window j 1 < T16x32768.size 1
        rw [rows_start1, rows_window1]
        refine ⟨by omega, ?_⟩
        show (0 : Int) + ((j 1).val : Int) < ((32768 : Nat) : Int)
        omega

/-- What the target's entry `(c, v)` receives: the updates' entries `(b, v)` of the rows `b` whose index is class `c`. -/
theorem scatter2_sum (idx : IVec T512x1 32) (upd : T512x32768.Idx → EReal) (c : Fin 16) (v : Fin 32768) :
    ∑ j ∈ Finset.univ.filter (fun j => rowsScatter.resultIdx? j idx = some (ix2 c v)), upd j
      = ∑ b : Fin 512, if idx (ix2 b 0) = cls c then upd (ix2 b v) else 0 := by
  rw [Finset.sum_filter, sum_idx2]
  refine Finset.sum_congr rfl fun b _ => ?_
  have hcond : ∀ v' : Fin 32768, (rowsScatter.resultIdx? (ix2 b v') idx = some (ix2 c v))
      ↔ (idx (ix2 b 0) = cls c ∧ v' = v) := fun v' => by
    rw [resultIdx2_eq_some_iff]
    exact and_congr (toInt_eq_iff _ c) Iff.rfl
  by_cases hb : idx (ix2 b 0) = cls c
  · rw [if_pos hb, Finset.sum_eq_single v]
    · rw [if_pos ((hcond v).mpr ⟨hb, rfl⟩)]
    · intro v' _ hv'
      rw [if_neg (fun h => hv' ((hcond v').mp h).2)]
    · intro hv; exact absurd (Finset.mem_univ v) hv
  · rw [if_neg hb]
    exact Finset.sum_eq_zero fun v' _ => if_neg (fun h => hb ((hcond v').mp h).1)

/-! ## The scatter-add along the labels, one-dimensional updates -/

/-- The dimension numbers of `segment_sum` of a vector: update entry `b` goes to the target entry its index names. -/
def entriesScatter : ScatterDims T16 T512x1 T512 where
  updateWindowDims := []
  insertedWindowDims := [0]
  scatterDimsToOperandDims := [0]
  indexVectorDim := 1

theorem entries_start0 (j : T512.Idx) (idx : IVec T512x1 32) :
    entriesScatter.start j idx 0 = (idx (ix2 (j 0) 0)).toInt := by
  unfold ScatterDims.start
  rw [dif_pos (by decide)]
  have e : entriesScatter.siIdx j ⟨List.idxOf (0 : Fin T16.rank) entriesScatter.scatterDimsToOperandDims,
      List.idxOf_lt_length_iff.2 (by decide)⟩ = ix2 (j 0) 0 := by
    funext a
    match a with
    | ⟨0, _⟩ => rfl
    | ⟨1, _⟩ => rfl
  exact congrArg (fun t => (idx t).toInt) e

theorem entries_window0 (j : T512.Idx) : entriesScatter.window j 0 = 0 := rfl

theorem resultIdx1_eq_some_iff (j : T512.Idx) (idx : IVec T512x1 32) (i : T16.Idx) :
    entriesScatter.resultIdx? j idx = some i ↔ (idx (ix2 (j 0) 0)).toInt = ((i 0).val : Int) := by
  have hi0 : (i 0).val < 16 := (i 0).isLt
  have s0 : (T16.size 0 : Nat) = 16 := rfl
  unfold ScatterDims.resultIdx?
  by_cases hh : ∀ a, 0 ≤ entriesScatter.start j idx a + entriesScatter.window j a
      ∧ entriesScatter.start j idx a + entriesScatter.window j a < T16.size a
  · rw [dif_pos hh]
    constructor
    · intro h
      have h' := Option.some.inj h
      have h0 : (entriesScatter.start j idx 0 + entriesScatter.window j 0).toNat = (i 0).val := congrArg Fin.val (congrFun h' 0)
      have r0 := hh 0
      rw [entries_start0, entries_window0] at h0 r0
      omega
    · intro h0
      congr 1
      funext a
      match a with
      | ⟨0, _⟩ =>
        apply Fin.ext
        show (entriesScatter.start j idx 0 + entriesScatter.window j 0).toNat = (i 0).val
        rw [entries_start0, entries_window0, h0]; omega
  · rw [dif_neg hh]
    constructor
    · intro h; exact absurd h (by simp)
    · intro h0
      exfalso
      apply hh
      intro a
      match a with
      | ⟨0, _⟩ =>
        show 0 ≤ entriesScatter.start j idx 0 + entriesScatter.window j 0
          ∧ entriesScatter.start j idx 0 + entriesScatter.window j 0 < T16.size 0
        rw [entries_start0, entries_window0, h0]
        refine ⟨by omega, ?_⟩
        show ((i 0).val : Int) + ((0 : Nat) : Int) < ((16 : Nat) : Int)
        omega

/-- What the target's entry `c` receives: the updates' entries `b` whose index is class `c`. -/
theorem scatter1_sum (idx : IVec T512x1 32) (upd : T512.Idx → EReal) (c : Fin 16) :
    ∑ j ∈ Finset.univ.filter (fun j => entriesScatter.resultIdx? j idx = some (ix1 c)), upd j
      = ∑ b : Fin 512, if idx (ix2 b 0) = cls c then upd (ix1 b) else 0 := by
  rw [Finset.sum_filter, ← Equiv.sum_comp (idxEquiv1 (n := 512)).symm]
  refine Finset.sum_congr rfl fun b _ => ?_
  have hb : (idxEquiv1 (n := 512)).symm b = ix1 b := by
    funext a; match a with | ⟨0, _⟩ => rfl
  rw [hb]
  have hcond : (entriesScatter.resultIdx? (ix1 b) idx = some (ix1 c)) ↔ idx (ix2 b 0) = cls c := by
    rw [resultIdx1_eq_some_iff]; exact toInt_eq_iff _ c
  by_cases h : idx (ix2 b 0) = cls c
  · rw [if_pos h, if_pos (hcond.mpr h)]
  · rw [if_neg h, if_neg (fun h' => h (hcond.mp h'))]

end Cert.Segments

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KernelPayload.lean ====
/-
  The accumulate store's value, entry by entry, over the extended reals.

  For a block of 256 samples and 128 columns the body forms the block's one-hot matrix `oh[k, c]` (one when sample `k`'s
  label is class `c`), selects each sample's own weight by a lane sum `sel[k, v] = Σ_c' w[k, v, c'] * oh[k, c']`, takes the
  magnitude of activation times selected weight, and contracts the one-hot matrix against it over the samples:

      new[c, v] = acc[c, v] + Σ_k oh[k, c] * |sp[k, v] * sel[k, v]|.

  At the ideal values the lane sum and the contraction into a zero accumulator are plain finite sums (no rounding, no
  order), so this is an identity between extended reals, read off the operations one at a time: the layout operations
  move an index, the pointwise ones act at it.
-/
import proofs.«423744_j26207890440396_2_alg».proof.Proof.Gen.KernelIdeal.Skeleton
import proofs.«423744_j26207890440396_2_alg».proof.Proof.SegmentSums
import proofs.«423744_j26207890440396_2_alg».proof.Proof.LibOneAxisContraction
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.Segments

/-! ## Which entries of its operands the block product reads -/

theorem lhs_0 (i : S16x128.Idx) (q : dot_S256x16_S256x128_S16x128_0_0_1_1_n_n.contr.Idx) :
    (dot_S256x16_S256x128_S16x128_0_0_1_1_n_n.lhsIdx i q 0).val = (q ⟨0, by decide⟩).val :=
  dot_S256x16_S256x128_S16x128_0_0_1_1_n_n.lhsIdx_val_of_single rfl i q

theorem lhs_1 (i : S16x128.Idx) (q : dot_S256x16_S256x128_S16x128_0_0_1_1_n_n.contr.Idx) :
    (dot_S256x16_S256x128_S16x128_0_0_1_1_n_n.lhsIdx i q 1).val = (i 0).val := by
  unfold DotDims.lhsIdx
  rw [dif_neg (show ¬(1 : Fin S256x16.rank) ∈ dot_S256x16_S256x128_S16x128_0_0_1_1_n_n.lhsBatch by decide),
    dif_pos (show (1 : Fin S256x16.rank) ∈ dot_S256x16_S256x128_S16x128_0_0_1_1_n_n.lhsNonContracting by decide)]
  rfl

theorem rhs_0 (i : S16x128.Idx) (q : dot_S256x16_S256x128_S16x128_0_0_1_1_n_n.contr.Idx) :
    (dot_S256x16_S256x128_S16x128_0_0_1_1_n_n.rhsIdx i q 0).val = (q ⟨0, by decide⟩).val :=
  dot_S256x16_S256x128_S16x128_0_0_1_1_n_n.rhsIdx_val_of_single rfl i q

theorem rhs_1 (i : S16x128.Idx) (q : dot_S256x16_S256x128_S16x128_0_0_1_1_n_n.contr.Idx) :
    (dot_S256x16_S256x128_S16x128_0_0_1_1_n_n.rhsIdx i q 1).val = (i 1).val := by
  unfold DotDims.rhsIdx
  rw [dif_neg (show ¬(1 : Fin S256x128.rank) ∈ dot_S256x16_S256x128_S16x128_0_0_1_1_n_n.rhsBatch by decide),
    dif_pos (show (1 : Fin S256x128.rank) ∈ dot_S256x16_S256x128_S16x128_0_0_1_1_n_n.rhsNonContracting by decide)]
  rfl

/-- The magnitude, entry by entry. -/
theorem absf_apply {s : Shape} {φ : FTy} (a : FVec Ideal s φ) (i : s.Idx) : absf a i = mag (a i) := rfl

/-! ## The one-hot rows of a block of 256 labels -/

/-- Entry `(k, c)` of the block's one-hot matrix: one when sample `k`'s label is class `c`. -/
theorem onehot_apply (lbl : Vec Ideal S256 .i32) (k : Fin 256) (c : Fin 16) :
    (sitofp (F := Ideal) .f32 (extui 32 (cmpi .eq (broadcastTo S256x16 (shapeCast S256x1 lbl Facts₀.shapeCasts_S256_S256x1)
        Facts₀.broadcasts_S256x1_S256x16) (iota .tc S256x16 32 [1] Facts₀.iota_S256x16_d1_w32)) Facts₀.natLt_1_32)
      : FVec Ideal S256x16 .f32) (ix2 k c) = ind (lbl (ix1 k)) c := by
  rw [sitofp_apply, extui_apply]
  show FloatOps.sitofp (F := Ideal) .f32 ((IntOp.cmpi .eq (broadcastTo S256x16 (shapeCast S256x1 lbl _) _ (ix2 k c))
    (iota .tc S256x16 32 [1] _ (ix2 k c))).setWidth 32) = _
  rw [iota_single_apply, broadcastTo_apply _ _ (ix2 k c) (ix2 k (0 : Fin 1)) (fun a => by
      match a with
      | ⟨0, _⟩ => rfl
      | ⟨1, _⟩ => rfl),
    shapeCast_apply _ _ (ix2 k (0 : Fin 1)) (ix1 k) (by
      rw [Shape.rowMajor_val_one, Shape.rowMajor_val_two]; show k.val = k.val * 1 + 0; omega)]
  exact sitofp_onehot _ _ (by decide)

/-- The block's one-hot matrix, as the body computes it from the block's labels. -/
abbrev onehot (lbl : Vec Ideal S256 .i32) : FVec Ideal S256x16 .f32 :=
  sitofp (F := Ideal) .f32 (extui 32 (cmpi .eq (broadcastTo S256x16 (shapeCast S256x1 lbl Facts₀.shapeCasts_S256_S256x1)
    Facts₀.broadcasts_S256x1_S256x16) (iota .tc S256x16 32 [1] Facts₀.iota_S256x16_d1_w32)) Facts₀.natLt_1_32)

/-! ## The weight a sample's one-hot row selects -/

/-- Entry `(k, v)` of the lane sum of weights times the one-hot row: the sum over the 16 classes of sample `k`'s weight
    for that class times the indicator of the sample's label being that class. -/
theorem selected_apply (w : Vec Ideal S256x128x16 .f32) (lbl : Vec Ideal S256 .i32) (k : Fin 256) (v : Fin 128) :
    (multiReduction .add [2] S256x128 (mulf w (broadcastTo S256x128x16 (shapeCast S256x1x16 (onehot lbl)
        Facts₀.shapeCasts_S256x16_S256x1x16) Facts₀.broadcasts_S256x1x16_S256x128x16)) 0x00000000#32
        Facts₀.reduces_S256x128x16_S256x128 (.inl rfl) rfl : FVec Ideal S256x128 .f32) (ix2 k v)
      = ∑ c' : Fin 16, w (ix3 k v c') * ind (lbl (ix1 k)) c' := by
  refine (Ideal.multiReduction_add_single _ 0x00000000#32 Facts₀.reduces_S256x128x16_S256x128 (.inl rfl) rfl (ix2 k v)).trans ?_
  refine Finset.sum_congr rfl fun (c' : Fin 16) _ => ?_
  have hl : Facts₀.reduces_S256x128x16_S256x128.lift (ix2 k v) c' = ix3 k v c' := funext fun a => Fin.ext (by
    match a with
    | ⟨0, _⟩ => rfl
    | ⟨1, _⟩ => rfl
    | ⟨2, _⟩ => rfl)
  rw [hl, mulf_apply, broadcastTo_apply _ _ (ix3 k v c') (ix3 k (0 : Fin 1) c') (fun a => by
      match a with
      | ⟨0, _⟩ => rfl
      | ⟨1, _⟩ => rfl
      | ⟨2, _⟩ => rfl),
    shapeCast_apply _ _ (ix3 k (0 : Fin 1) c') (ix2 k c') (by
      rw [Shape.rowMajor_val_two, Shape.rowMajor_val_three]
      show k.val * 16 + c'.val = (k.val * 1 + 0) * 16 + c'.val; omega)]
  exact congrArg (w (ix3 k v c') * ·) (onehot_apply lbl k c')

/-! ## What one grid point adds to the accumulator -/

/-- The accumulate store's value at class `c`, column `v` of the block: what the scratch held there, plus the sum over
    the block's 256 samples of the one-hot entry times the magnitude of activation times selected weight. -/
theorem pay2_apply (w : Vec Ideal S256x128x16 .f32) (lbl : Vec Ideal S256 .i32) (sp : Vec Ideal S256x128 .f32)
    (acc : Vec Ideal S16x128 .f32) (c : Fin 16) (v : Fin 128) :
    k0_pay2 (F := Ideal) w lbl sp acc (ix2 c v)
      = acc (ix2 c v) + ∑ k : Fin 256, ind (lbl (ix1 k)) c
          * mag (sp (ix2 k v) * ∑ c' : Fin 16, w (ix3 k v c') * ind (lbl (ix1 k)) c') := by
  unfold k0_pay2
  dsimp only
  rw [shapeCast_self, addf_apply]
  congr 1
  rw [Cert.Dots.matmul_zero_apply_of dot_S256x16_S256x128_S16x128_0_0_1_1_n_n 256 rfl rfl _ _ _ (ix2 c v)
    (fun k => ix2 k c) (fun k => ix2 k v)
    (fun k => funext fun a => Fin.ext (by
      have hk := contrEquiv1_symm_val dot_S256x16_S256x128_S16x128_0_0_1_1_n_n 256 rfl rfl k
      match a with
      | ⟨0, _⟩ => exact (lhs_0 _ _).trans hk
      | ⟨1, _⟩ => exact lhs_1 _ _))
    (fun k => funext fun a => Fin.ext (by
      have hk := contrEquiv1_symm_val dot_S256x16_S256x128_S16x128_0_0_1_1_n_n 256 rfl rfl k
      match a with
      | ⟨0, _⟩ => exact (rhs_0 _ _).trans hk
      | ⟨1, _⟩ => exact rhs_1 _ _))]
  refine Finset.sum_congr rfl fun k _ => ?_
  refine congrArg₂ (· * ·) (onehot_apply lbl k c) ?_
  rw [absf_apply, mulf_apply]
  exact congrArg (fun z => mag (sp (ix2 k v) * z)) (selected_apply w lbl k v)

end Cert.KernelIdeal.Payload
end
-- ==== Proof.KernelSums.lean ====
import proofs.«423744_j26207890440396_2_alg».proof.Proof.Gen.KernelIdeal.Frame
import proofs.«423744_j26207890440396_2_alg».proof.Proof.KernelPieces
import proofs.«423744_j26207890440396_2_alg».proof.Proof.KernelPayload
import proofs.«423744_j26207890440396_2_alg».proof.Proof.SegmentSums
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Sums

open Cert.KernelIdeal Cert.KernelIdeal.Gen Cert.Segments

variable (m : (ℓ : Loc nD τ sig) → Buf (Elt Ideal) ℓ) (ρ : Dev nD → PrngReg)

/-! ## The arrays and the blocks, by their literal types -/

abbrev Warr (c : Dev nD) : Vec Ideal S512x32768x16 .f32 := V m c main_arg1
abbrev Sarr (c : Dev nD) : Vec Ideal S512x32768 .f32 := V m c main_arg0
abbrev Larr (c : Dev nD) : Vec Ideal S512 .i32 := V m c main_arg2
abbrev wblk (c : Dev nD) (t : Fin cfg0.N) : Vec Ideal S256x128x16 .f32 := iblk m c 0 t
abbrev sblk (c : Dev nD) (t : Fin cfg0.N) : Vec Ideal S256x128 .f32 := iblk m c 1 t
abbrev lblk (c : Dev nD) (t : Fin cfg0.N) : Vec Ideal S256 .i32 := iblk m c 2 t

/-- The printed index maps, decided over the grid: point `t` is column block `t / 2`, sample block `t % 2`. -/
theorem idx_facts : ∀ t : Fin cfg0.N,
    win0_0.index t (0 : Fin 3) = t.val % 2 ∧ win0_0.index t (1 : Fin 3) = t.val / 2 ∧ win0_0.index t (2 : Fin 3) = 0
    ∧ win0_1.index t (0 : Fin 2) = t.val % 2 ∧ win0_1.index t (1 : Fin 2) = t.val / 2
    ∧ win0_2.index t (0 : Fin 1) = t.val % 2
    ∧ win0_3.index t (0 : Fin 2) = 0 ∧ win0_3.index t (1 : Fin 2) = t.val / 2 :=
  (by decide +kernel : ∀ t : Fin grid0.N, _)

theorem t_lt (t : Fin cfg0.N) : t.val < 512 := lt_of_lt_of_eq t.isLt (show cfg0.N = 512 from N_0)

/-- Sample `k` of point `t`'s sample block, as a sample of the batch. -/
abbrev smp (t : Fin cfg0.N) (k : Fin 256) : Fin 512 := ⟨256 * (t.val % 2) + k.val, by have := k.isLt; omega⟩
/-- Column `v` of point `t`'s column block, as a column of the arrays. -/
abbrev col (t : Fin cfg0.N) (v : Fin 128) : Fin 32768 := ⟨128 * (t.val / 2) + v.val, by have := t_lt t; have := v.isLt; omega⟩

theorem wblk_apply (c : Dev nD) (t : Fin cfg0.N) (k : Fin 256) (v : Fin 128) (c' : Fin 16) :
    wblk m c t (ix3 k v c') = Warr m c (ix3 (smp t k) (col t v) c') := by
  obtain ⟨e0, e1, e2, -⟩ := idx_facts t
  show V m c main_arg1 (((cfg0.win 0).blk t).view.emb (ix3 k v c')) = V m c main_arg1 (ix3 (smp t k) (col t v) c')
  congr 1
  funext a; apply Fin.ext
  match a with
  | ⟨0, _⟩ => show win0_0.index t (0 : Fin 3) * 256 + 1 * k.val = 256 * (t.val % 2) + k.val; omega
  | ⟨1, _⟩ => show win0_0.index t (1 : Fin 3) * 128 + 1 * v.val = 128 * (t.val / 2) + v.val; omega
  | ⟨2, _⟩ => show win0_0.index t (2 : Fin 3) * 16 + 1 * c'.val = c'.val; omega

theorem sblk_apply (c : Dev nD) (t : Fin cfg0.N) (k : Fin 256) (v : Fin 128) :
    sblk m c t (ix2 k v) = Sarr m c (ix2 (smp t k) (col t v)) := by
  obtain ⟨-, -, -, e0, e1, -⟩ := idx_facts t
  show V m c main_arg0 (((cfg0.win 1).blk t).view.emb (ix2 k v)) = V m c main_arg0 (ix2 (smp t k) (col t v))
  congr 1
  funext a; apply Fin.ext
  match a with
  | ⟨0, _⟩ => show win0_1.index t (0 : Fin 2) * 256 + 1 * k.val = 256 * (t.val % 2) + k.val; omega
  | ⟨1, _⟩ => show win0_1.index t (1 : Fin 2) * 128 + 1 * v.val = 128 * (t.val / 2) + v.val; omega

theorem lblk_apply (c : Dev nD) (t : Fin cfg0.N) (k : Fin 256) :
    lblk m c t (ix1 k) = Larr m c (ix1 (smp t k)) := by
  obtain ⟨-, -, -, -, -, e0, -⟩ := idx_facts t
  show V m c main_arg2 (((cfg0.win 2).blk t).view.emb (ix1 k)) = V m c main_arg2 (ix1 (smp t k))
  congr 1
  funext a; apply Fin.ext
  match a with
  | ⟨0, _⟩ => show win0_2.index t (0 : Fin 1) * 256 + 1 * k.val = 256 * (t.val % 2) + k.val; omega

/-! ## One sample's term, and what a point adds -/

/-- Sample `b`'s term for class `cc`, column `vv`: its one-hot entry times the magnitude of its activation times the
    weight its one-hot row selects. -/
def term (c : Dev nD) (b : Fin 512) (cc : Fin 16) (vv : Fin 32768) : EReal :=
  ind (Larr m c (ix1 b)) cc
    * mag (Sarr m c (ix2 b vv) * ∑ c' : Fin 16, Warr m c (ix3 b vv c') * ind (Larr m c (ix1 b)) c')

/-- What point `t` adds at class `cc`, column `v` of its block: the terms of its 256 samples. -/
theorem added_eq (c : Dev nD) (t : Fin cfg0.N) (cc : Fin 16) (v : Fin 128) :
    (∑ k : Fin 256, ind (lblk m c t (ix1 k)) cc
        * mag (sblk m c t (ix2 k v) * ∑ c' : Fin 16, wblk m c t (ix3 k v c') * ind (lblk m c t (ix1 k)) c'))
      = ∑ k : Fin 256, term m c (smp t k) cc (col t v) := by
  refine Finset.sum_congr rfl fun k _ => ?_
  unfold term
  rw [lblk_apply, sblk_apply]
  refine congrArg (fun z => ind (Larr m c (ix1 (smp t k))) cc * mag (Sarr m c (ix2 (smp t k) (col t v)) * z)) ?_
  exact Finset.sum_congr rfl fun c' _ => by rw [wblk_apply]

/-- After a first sample block (an even point) the accumulator holds zero plus the block's terms. -/
theorem scratch_even (c : Dev nD) (t : Fin cfg0.N) (h0 : t.val % 2 = 0) (h1 : ¬t.val % 2 = 1) (cc : Fin 16) (v : Fin 128) :
    (outsAt0 m c t.val t.isLt).2 (ix2 cc v) = 0 + ∑ k : Fin 256, term m c (smp t k) cc (col t v) := by
  rw [outsAt0_A m c t h0 h1]
  dsimp only
  refine (congrFun (Pieces.scratch_first (F := Ideal) c (grid0.coords t) (ms0_0 t) (hs0_0 t) (ms0_1 t) (hs0_1 t) (ms0_2 t)
    (hs0_2 t) (ms0_3 t) (hs0_3 t) scM0_0 (Memref.isWhole_whole _) ((hcond0_0 t).mpr h0) (fun h => h1 ((hcond0_1 t).mp h))
    (wblk m c t) (sblk m c t) (lblk m c t)) (ix2 cc v)).trans ?_
  refine (Payload.pay2_apply (wblk m c t) (lblk m c t) (sblk m c t) (k0_pay1 (F := Ideal)) cc v).trans ?_
  rw [added_eq]
  refine congrArg (· + _) ?_
  show Ideal.ofBits .f32 0x00000000#32 = 0
  exact Ideal.ofBits_zero_f32

/-- After a last sample block (an odd point) the output block holds what the point before left in the accumulator plus
    the block's terms. -/
theorem out_odd (c : Dev nD) (t : Fin cfg0.N) (h0 : ¬t.val % 2 = 0) (h1 : t.val % 2 = 1) (cc : Fin 16) (v : Fin 128) :
    (outsAt0 m c t.val t.isLt).1 (ix2 cc v)
      = (outsAt0 m c (t.val - 1) (Nat.lt_of_le_of_lt (Nat.sub_le _ _) t.isLt)).2 (ix2 cc v)
        + ∑ k : Fin 256, term m c (smp t k) cc (col t v) := by
  rw [outsAt0_B m c t h0 h1]
  dsimp only
  refine (congrFun (Pieces.out_last (F := Ideal) c (grid0.coords t) (ms0_0 t) (hs0_0 t) (ms0_1 t) (hs0_1 t) (ms0_2 t)
    (hs0_2 t) (ms0_3 t) (hs0_3 t) scM0_0 (Memref.isWhole_whole _) (fun h => h0 ((hcond0_0 t).mp h)) ((hcond0_1 t).mpr h1)
    (wblk m c t) (sblk m c t) (lblk m c t)
    (outsAt0 m c (t.val - 1) (Nat.lt_of_le_of_lt (Nat.sub_le _ _) t.isLt)).2) (ix2 cc v)).trans ?_
  refine (Payload.pay2_apply (wblk m c t) (lblk m c t) (sblk m c t)
    (outsAt0 m c (t.val - 1) (Nat.lt_of_le_of_lt (Nat.sub_le _ _) t.isLt)).2 cc v).trans ?_
  rw [added_eq]

end Cert.KernelIdeal.Sums
end
-- ==== Proof.Spec.lean ====
/-
  What both programs compute before their common last steps: per class, a total and a count.

  For class `c` and column `v` the total adds, over the samples whose label is class `c`, the magnitude of the sample's
  activation at `v` times the sample's weight at `v` for that class; the count is the number of such samples, as the sum of the
  0/1 indicator. A sample whose label is no class's word is in no total and no count.
-/
import proofs.«423744_j26207890440396_2_alg».proof.Proof.SegmentSums

noncomputable section

namespace Cert.Spec

open Idealize.ShloMosaic Idealize.ShloMosaic.ValueIdx Cert.Segments
open scoped BigOperators

abbrev T512x32768x16 : Shape := ⟨3, ![512, 32768, 16]⟩

/-- Class `c`'s total at column `v`. -/
def sumsAt (sp : T512x32768.Idx → EReal) (W : T512x32768x16.Idx → EReal) (L : IVec T512 32) (c : Fin 16) (v : Fin 32768) : EReal :=
  ∑ b : Fin 512, if L (ix1 b) = cls c then mag (sp (ix2 b v) * W (ix3 b v c)) else 0

/-- The totals as a 16 x 32768 array. -/
def sums (sp : T512x32768.Idx → EReal) (W : T512x32768x16.Idx → EReal) (L : IVec T512 32) : T16x32768.Idx → EReal :=
  fun i => sumsAt sp W L (i 0) (i 1)

/-- The number of samples of class `c`. -/
def countAt (L : IVec T512 32) (c : Fin 16) : EReal := ∑ b : Fin 512, ind (L (ix1 b)) c

/-- The counts as an array of 16. -/
def counts (L : IVec T512 32) : T16.Idx → EReal := fun i => countAt L (i 0)

theorem sums_apply (sp : T512x32768.Idx → EReal) (W : T512x32768x16.Idx → EReal) (L : IVec T512 32) (c : Fin 16) (v : Fin 32768) :
    sums sp W L (ix2 c v) = sumsAt sp W L c v := rfl

theorem counts_apply (L : IVec T512 32) (c : Fin 16) : counts L (ix1 c) = countAt L c := rfl

end Cert.Spec

end
-- ==== Proof.KernelTotals.lean ====
/-
  The kernel's output array, and that it holds the per-class totals.

  The grid walks the 256 column blocks, and inside each the two sample blocks. The output's block for a column block is
  written back once, at the column block's second point, and holds there what the accumulator had after the first point
  (zero plus the first 256 samples' terms) plus the last 256 samples' terms. The odd points' blocks tile the array, so the
  array ends at one function of the arguments (`final`); splitting the 512 samples in two halves and collapsing each
  sample's one-hot row gives the per-class total (`G_eq`).
-/
import proofs.«423744_j26207890440396_2_alg».proof.Proof.KernelSums
import proofs.«423744_j26207890440396_2_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Totals

open Cert.KernelIdeal Cert.KernelIdeal.Gen Cert.Segments Cert.KernelIdeal.Sums

variable (m : (ℓ : Loc nD τ sig) → Buf (Elt Ideal) ℓ) (ρ : Dev nD → PrngReg)

/-- Sample `k` of the first half, and of the second half. -/
abbrev lo (k : Fin 256) : Fin 512 := ⟨k.val, by have := k.isLt; omega⟩
abbrev hi (k : Fin 256) : Fin 512 := ⟨256 + k.val, by have := k.isLt; omega⟩

/-- The output array as the kernel leaves it: zero plus the first half's terms, plus the second half's. -/
def G (c : Dev nD) : Vec Ideal S16x32768 .f32 := fun i =>
  (0 + ∑ k : Fin 256, term m c (lo k) (i 0) (i 1)) + ∑ k : Fin 256, term m c (hi k) (i 0) (i 1)

theorem G_apply (c : Dev nD) (cc : Fin 16) (vv : Fin 32768) :
    G m c (ix2 cc vv) = (0 + ∑ k : Fin 256, term m c (lo k) cc vv) + ∑ k : Fin 256, term m c (hi k) cc vv := rfl

/-- Entry `(cc, v)` of point `t`'s output block is entry `(cc, column v of the point's column block)` of the array. -/
theorem emb3 (t : Fin cfg0.N) (cc : Fin 16) (v : Fin 128) :
    ((cfg0.win 3).blk t).view.emb (ix2 cc v) = ix2 cc (col t v) := by
  obtain ⟨-, -, -, -, -, -, e0, e1⟩ := idx_facts t
  funext a; apply Fin.ext
  match a with
  | ⟨0, _⟩ => show win0_3.index t (0 : Fin 2) * 16 + 1 * cc.val = cc.val; omega
  | ⟨1, _⟩ => show win0_3.index t (1 : Fin 2) * 128 + 1 * v.val = 128 * (t.val / 2) + v.val; omega

theorem prev_lt (t : Fin cfg0.N) : t.val - 1 < cfg0.N := Nat.lt_of_le_of_lt (Nat.sub_le _ _) t.isLt

/-- At a column block's second point the output block holds the array's function there. -/
theorem out_at (c : Dev nD) (t : Fin cfg0.N) (h1 : t.val % 2 = 1) (cc : Fin 16) (v : Fin 128) :
    (outsAt0 m c t.val t.isLt).1 (ix2 cc v) = G m c (ix2 cc (col t v)) := by
  have h0 : ¬t.val % 2 = 0 := by omega
  have hN := t_lt t
  have hp := scratch_even m c ⟨t.val - 1, prev_lt t⟩ (by show (t.val - 1) % 2 = 0; omega)
    (by show ¬(t.val - 1) % 2 = 1; omega) cc v
  rw [out_odd m c t h0 h1 cc v, G_apply]
  refine congrArg₂ (· + ·) (hp.trans (congrArg (0 + ·) ?_)) ?_
  · refine Finset.sum_congr rfl fun k _ => ?_
    have e1 : smp ⟨t.val - 1, prev_lt t⟩ k = lo k := Fin.ext (by
      show 256 * ((t.val - 1) % 2) + k.val = k.val; omega)
    have e2 : col ⟨t.val - 1, prev_lt t⟩ v = col t v := Fin.ext (by
      show 128 * ((t.val - 1) / 2) + v.val = 128 * (t.val / 2) + v.val; omega)
    rw [e1, e2]
  · refine Finset.sum_congr rfl fun k _ => ?_
    have e1 : smp t k = hi k := Fin.ext (by show 256 * (t.val % 2) + k.val = 256 + k.val; omega)
    rw [e1]

/-- What a point that writes the output back writes: its block of the array's function. -/
theorem flushed_eq (c : Dev nD) (t : Fin cfg0.N) (hf : (cfg0.win 3).flush t = true) :
    (dats m 0 c).flushed 3 t = ((cfg0.win 3).blk t).view.read (Elt Ideal) (G m c) := by
  have h1 : t.val % 2 = 1 := (flush0_3 t).mp hf
  show (cfg0.win 3).cut (grid0.coords t) ((dats m 0 c).after 3 t) = _
  rw [after0_3]
  funext y
  obtain ⟨cc, v, rfl⟩ : ∃ (cc : Fin 16) (v : Fin 128), y = ix2 cc v := ⟨y 0, y 1, eq_ix2 y⟩
  show (outsAt0 m c t.val t.isLt).1 (ix2 cc v) = G m c (((cfg0.win 3).blk t).view.emb (ix2 cc v))
  rw [emb3, out_at m c t h1]

/-- An index of the array is in point `t`'s output block iff each coordinate is in the block's range on its axis. -/
theorem mem_blk3 (t : Fin cfg0.N) (i : S16x32768.Idx) :
    i ∈ ((cfg0.win 3).blk t).view.set ↔ ∀ a : Fin 2, win0_3.index t a * S16x128.size a ≤ (i a).val
      ∧ (i a).val < win0_3.index t a * S16x128.size a + S16x128.size a := by
  show i ∈ ((View.whole main_v0).slice (win0_3.rect t)).set ↔ _
  rw [View.set_slice_whole, Rect.mem_set_unit]
  exact Iff.rfl

/-- Every entry of the array is in the block written back at the second point of its column block. -/
theorem cover3 (i : S16x32768.Idx) :
    ∃ t : Fin cfg0.N, (cfg0.win 3).flush t = true ∧ i ∈ ((cfg0.win 3).blk t).view.set := by
  have hi0 : (i 0).val < 16 := (i 0).isLt
  have hi1 : (i 1).val < 32768 := (i 1).isLt
  have hN : cfg0.N = 512 := N_0
  have ht : 2 * ((i 1).val / 128) + 1 < cfg0.N := by omega
  refine ⟨⟨2 * ((i 1).val / 128) + 1, ht⟩, (flush0_3 _).mpr (by show (2 * ((i 1).val / 128) + 1) % 2 = 1; omega), ?_⟩
  rw [mem_blk3]
  obtain ⟨-, -, -, -, -, -, e0, e1⟩ := idx_facts ⟨2 * ((i 1).val / 128) + 1, ht⟩
  have e1' : win0_3.index ⟨2 * ((i 1).val / 128) + 1, ht⟩ (1 : Fin 2) = (2 * ((i 1).val / 128) + 1) / 2 := e1
  intro a
  match a with
  | ⟨0, _⟩ =>
    show win0_3.index ⟨2 * ((i 1).val / 128) + 1, ht⟩ (0 : Fin 2) * 16 ≤ (i 0).val
      ∧ (i 0).val < win0_3.index ⟨2 * ((i 1).val / 128) + 1, ht⟩ (0 : Fin 2) * 16 + 16
    omega
  | ⟨1, _⟩ =>
    show win0_3.index ⟨2 * ((i 1).val / 128) + 1, ht⟩ (1 : Fin 2) * 128 ≤ (i 1).val
      ∧ (i 1).val < win0_3.index ⟨2 * ((i 1).val / 128) + 1, ht⟩ (1 : Fin 2) * 128 + 128
    omega

/-- The output array after the run. -/
theorem final (c : Dev nD) : (dats m 0 c).arrAt 3 cfg0.N = G m c :=
  (dats m 0 c).arrAt_eq_of_cover 3 (G m c) (fun t hf => flushed_eq m c t hf) cover3

/-- The array's function is the per-class total: the two halves are all 512 samples, and a sample's one-hot row keeps its
    term for its own class only, with its own class's weight. -/
theorem G_eq (c : Dev nD) : G m c = Cert.Spec.sums (Sarr m c) (Warr m c) (Larr m c) := by
  funext i
  obtain ⟨cc, vv, rfl⟩ : ∃ (cc : Fin 16) (vv : Fin 32768), i = ix2 cc vv := ⟨i 0, i 1, eq_ix2 i⟩
  rw [G_apply, zero_add, Cert.Spec.sums_apply]
  unfold Cert.Spec.sumsAt
  rw [sum_halves]
  refine congrArg₂ (· + ·) ?_ ?_ <;>
    exact Finset.sum_congr rfl fun k _ =>
      onehot_collapse _ cc _ (fun c' => Warr m c (ix3 _ vv c'))

end Cert.KernelIdeal.Totals
end
-- ==== Proof.KernelCounts.lean ====
/-
  The kernel program's per-class counts.

  The host part forms the full one-hot matrix `oh[b, c]` (the equality bit of sample `b`'s label against the number `c`,
  converted as an unsigned integer: one when the label is class `c`, else zero) and adds it up over the samples from zero.
  Entry `c` of the result is zero plus the sum of the indicators: the number of samples of class `c`.
-/
import proofs.«423744_j26207890440396_2_alg».proof.Proof.Gen.KernelIdeal
import proofs.«423744_j26207890440396_2_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Counts

open Cert.KernelIdeal Cert.Segments
open Facts₀ Facts

/-- The full one-hot matrix, as the host operations compute it from the labels. -/
abbrev onehotFull (L : Vec Ideal S512 .i32) : FVec Ideal S512x16 .f32 :=
  uitofp (F := Ideal) .f32 (cmpi .eq
    (broadcastInDim S512x16 ![0, 1] bcast_S512x1_S512x16_0_1 (broadcastInDim S512x1 ![0] bcast_S512_S512x1_0 L))
    (broadcastInDim S512x16 ![0, 1] bcast_S1x16_S512x16_0_1 (iotaInDim S1x16 32 1)))

/-- Entry `(b, c)` of the full one-hot matrix: one when sample `b`'s label is class `c`. -/
theorem onehotFull_apply (L : Vec Ideal S512 .i32) (b : Fin 512) (cc : Fin 16) :
    onehotFull L (ix2 b cc) = ind (L (ix1 b)) cc := by
  show FloatOps.uitofp (F := Ideal) .f32 (IntOp.cmpi .eq
    (broadcastInDim S512x16 ![0, 1] bcast_S512x1_S512x16_0_1 (broadcastInDim S512x1 ![0] bcast_S512_S512x1_0 L) (ix2 b cc))
    (broadcastInDim S512x16 ![0, 1] bcast_S1x16_S512x16_0_1 (iotaInDim S1x16 32 1) (ix2 b cc))) = _
  rw [broadcastInDim_apply _ bcast_S512x1_S512x16_0_1 _ (ix2 b cc) (ix2 b (0 : Fin 1)) (fun a => match a with
      | ⟨0, _⟩ => by show b.val = if (512 : Nat) = 1 then 0 else b.val; rw [if_neg (by decide)]
      | ⟨1, _⟩ => by show 0 = if (1 : Nat) = 1 then 0 else cc.val; rw [if_pos rfl]),
    broadcastInDim_apply _ bcast_S512_S512x1_0 L (ix2 b (0 : Fin 1)) (ix1 b) (fun a => match a with
      | ⟨0, _⟩ => by show b.val = if (512 : Nat) = 1 then 0 else b.val; rw [if_neg (by decide)]),
    broadcastInDim_apply _ bcast_S1x16_S512x16_0_1 _ (ix2 b cc) (ix2 (0 : Fin 1) cc) (fun a => match a with
      | ⟨0, _⟩ => by show 0 = if (1 : Nat) = 1 then 0 else b.val; rw [if_pos rfl]
      | ⟨1, _⟩ => by show cc.val = if (16 : Nat) = 1 then 0 else cc.val; rw [if_neg (by decide)]),
    iotaInDim_apply]
  exact uitofp_onehot _ cc

/-- The counts: the one-hot matrix added up over the samples, from zero. -/
theorem counts_eq (L : Vec Ideal S512 .i32) :
    Host.reduceAdd (onehotFull L) (constant (F := Ideal) S_ .f32 0x00000000#32) reducesTo_S512x16_S16_d0 h_S_
      = Cert.Spec.counts L := by
  funext j
  obtain ⟨cc, rfl⟩ : ∃ cc : Fin 16, j = ix1 cc := ⟨j 0, funext fun a => by match a with | ⟨0, _⟩ => rfl⟩
  have hr : S512x16.Reduces [0] S16 := by decide
  rw [hostReduceAdd_apply, Ideal.hostReduceAdd_single reducesTo_S512x16_S16_d0 hr, Cert.Spec.counts_apply]
  show Ideal.ofBits .f32 0x00000000#32 + _ = _
  rw [Ideal.ofBits_zero_f32, zero_add]
  unfold Cert.Spec.countAt
  refine Finset.sum_congr rfl fun (b : Fin 512) _ => ?_
  have hl : hr.lift (ix1 cc) b = ix2 b cc := funext fun a => Fin.ext (by
    match a with
    | ⟨0, _⟩ => rfl
    | ⟨1, _⟩ => rfl)
  rw [hl]
  exact onehotFull_apply L b cc

end Cert.KernelIdeal.Counts
end
-- ==== Proof.LastSteps.lean ====
/-
  The common last steps of both programs, as ONE function of the per-class totals and counts, the centroids and the
  initialised flags: the mean is the total over the larger of the count and one; where the class is initialised the
  centroid moves towards the mean by a fixed fraction, else it becomes the mean; and a class with no sample keeps its
  centroid. Both programs end with exactly these operations, so the claim about their results is this function applied to
  equal totals and counts; the function itself is never opened.
-/
import proofs.«423744_j26207890440396_2_alg».proof.Proof.Gen.KernelIdeal
import Idealize.ShloMosaic.PureOps.Ideal.Laws

noncomputable section

open Idealize.ShloMosaic

namespace Cert.KernelIdeal.Last

open Cert.KernelIdeal
open Facts₀ Facts

/-- The mean: each class's total over the larger of its count and one. -/
def mean (S : (⟨S16x32768, .f32⟩ : BufTy).Contents (Elt Ideal)) (N : (⟨S16, .f32⟩ : BufTy).Contents (Elt Ideal)) :
    (⟨S16x32768, .f32⟩ : BufTy).Contents (Elt Ideal) :=
  Host.divf S (broadcastInDim S16x32768 ![0, 1] bcast_S16x1_S16x32768_0_1 (broadcastInDim S16x1 ![0] bcast_S16_S16x1_0
    (maximumf N (broadcastInDim S16 ![] bcast_S_S16 (constant (F := Ideal) S_ .f32 0x3F800000#32)))))

/-- The new centroids from the totals, the counts, the old centroids and the initialised flags. -/
def tail (S : (⟨S16x32768, .f32⟩ : BufTy).Contents (Elt Ideal)) (N : (⟨S16, .f32⟩ : BufTy).Contents (Elt Ideal))
    (C : (⟨S16x32768, .f32⟩ : BufTy).Contents (Elt Ideal)) (I : (⟨S16, .i1⟩ : BufTy).Contents (Elt Ideal)) :
    (⟨S16x32768, .f32⟩ : BufTy).Contents (Elt Ideal) :=
  select (broadcastInDim S16x32768 ![0, 1] bcast_S16x1_S16x32768_0_1 (broadcastInDim S16x1 ![0] bcast_S16_S16x1_0
      (cmpf (F := Ideal) .ogt N (broadcastInDim S16 ![] bcast_S_S16 (constant (F := Ideal) S_ .f32 0x00000000#32)))))
    (select (broadcastInDim S16x32768 ![0, 1] bcast_S16x1_S16x32768_0_1 (broadcastInDim S16x1 ![0] bcast_S16_S16x1_0 I))
      (addf C (mulf (broadcastInDim S16x32768 ![] bcast_S_S16x32768 (constant (F := Ideal) S_ .f32 0x3B02F0E9#32))
        (subf (mean S N) C)))
      (mean S N))
    C

end Cert.KernelIdeal.Last
end
-- ==== Proof.KernelTail.lean ====
/-
  The kernel program's result.

  After the region the program computes the per-class counts from the labels and applies the common last steps to the
  region's output array, the counts, the centroids and the initialised flags. Read for ANY contents of the buffers the
  region leaves (`after_ops`), then at what the region does leave: the output array at the per-class totals, the labels,
  centroids and flags as launched.
-/
import proofs.«423744_j26207890440396_2_alg».proof.Proof.Gen.KernelIdeal.Frame
import proofs.«423744_j26207890440396_2_alg».proof.Proof.KernelTotals
import proofs.«423744_j26207890440396_2_alg».proof.Proof.KernelCounts
import proofs.«423744_j26207890440396_2_alg».proof.Proof.LastSteps
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HostTail

open Cert.KernelIdeal Cert.KernelIdeal.Gen
open Facts₀ Facts

variable (m : (ℓ : Loc nD τ sig) → Buf (Elt Ideal) ℓ) (ρ : Dev nD → PrngReg)

set_option maxRecDepth 8192 in
set_option maxHeartbeats 4000000 in
/-- The operations after the region, from any contents `A` of the buffers: the common last steps of the output array,
    the counts of the labels, the centroids and the flags, each as `A` holds it. -/
theorem after_ops (A : Valuation τ sig (Elt Ideal)) :
    StableHlo.after (List.flatten ([hostOps1, hostOps1_1, hostOps1_2, hostOps1_3, hostOps1_4] :
        List (List (HloOp τ sig (Elt Ideal))))) A (Proc.devRef .tc main_v17)
      = Last.tail (A (Proc.devRef .tc main_v0))
          (Host.reduceAdd (Counts.onehotFull (A (Proc.devRef .tc main_arg2))) (constant (F := Ideal) S_ .f32 0x00000000#32)
            Facts₀.reducesTo_S512x16_S16_d0 Facts₀.h_S_)
          (A (Proc.devRef .tc main_arg3)) (A (Proc.devRef .tc main_arg4)) := by
  simp only [hostOps1, hostOps1_1, hostOps1_2, hostOps1_3, hostOps1_4, List.flatten_cons, List.flatten_nil, List.append_nil,
    List.cons_append, List.nil_append]
  after_results
  rfl

/-- The program's result buffer after the run. -/
theorem tail_value (c : Dev nD) :
    Pipeline.afterTail₀ cfgs (dats m) 0 (V0 m) [hostOps1, hostOps1_1, hostOps1_2, hostOps1_3, hostOps1_4] c main_v17
      = Last.tail
          (Cert.Spec.sums (m ((c.tc : Thread nD τ).loc main_arg0)) (m ((c.tc : Thread nD τ).loc main_arg1))
            (m ((c.tc : Thread nD τ).loc main_arg2)))
          (Cert.Spec.counts (m ((c.tc : Thread nD τ).loc main_arg2)))
          (m ((c.tc : Thread nD τ).loc main_arg3)) (m ((c.tc : Thread nD τ).loc main_arg4)) := by
  unfold Pipeline.afterTail₀
  refine (after_ops _).trans ?_
  have hS : Pipeline.withArrays (cfgs 0).spec c (V0 m c) (fun w => (dats m 0 c).arrAt w (cfgs 0).N) (Proc.devRef .tc main_v0)
      = Cert.Spec.sums (m ((c.tc : Thread nD τ).loc main_arg0)) (m ((c.tc : Thread nD τ).loc main_arg1))
          (m ((c.tc : Thread nD τ).loc main_arg2)) :=
    (Pipeline.withArrays_arr spec0 launch0.win.arr_inj c _ _ 3).trans ((Totals.final m c).trans (Totals.G_eq m c))
  have hL : Pipeline.withArrays (cfgs 0).spec c (V0 m c) (fun w => (dats m 0 c).arrAt w (cfgs 0).N) (Proc.devRef .tc main_arg2)
      = m ((c.tc : Thread nD τ).loc main_arg2) :=
    (Pipeline.withArrays_arr spec0 launch0.win.arr_inj c _ _ 2).trans
      (((dats m 0 c).arrAt_in 2 rfl _).trans ((A_eq m c 2).trans (V_main_arg2 m c)))
  have hC : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  have hI : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  rw [hS, hL, hC, hI, Counts.counts_eq]

/-- Every weakly fair execution of the kernel program ends with its result at the common last steps of the per-class
    totals and counts, and its arguments as launched. -/
theorem run : θ_run defs (onTc (τ := τ) (main (F := Ideal))) ⟨m, fun _ => 0, ρ⟩ (fun r => ∀ c : Dev nD,
      r.2.mem ((c.tc : Thread nD τ).loc main_v17)
        = Last.tail
            (Cert.Spec.sums (m ((c.tc : Thread nD τ).loc main_arg0)) (m ((c.tc : Thread nD τ).loc main_arg1))
              (m ((c.tc : Thread nD τ).loc main_arg2)))
            (Cert.Spec.counts (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans (tail_value m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostTail
end
-- ==== Proof.RefSums.lean ====
/-
  The reference's per-class totals and counts.

  The reference picks, for each sample, the weight of the sample's own class: the label is normalised (a negative label has
  16 added), tested for the range 0..15, the weights are gathered at the normalised label, and where the test fails the
  gathered value is replaced by a NaN. The product with the activation, in magnitude, is then scatter-added along the RAW
  labels into a zero 16 x 32768 array, and a vector of ones is scatter-added the same way into a zero vector of 16.

  Row `c` of a scatter-add's target receives exactly the samples whose raw label is class `c`'s word. At such a sample the
  label is not negative, so normalising changes nothing; both range tests pass, so the mask — an `and` over a unit axis, one
  word — is true; the gather's batching axis gives the sample, its offset axis the column, and its start index, read signed
  and clamped into 0..15, the class: it reads the sample's weight for class `c`. What the gather or the NaN gave at any
  other sample lands on no entry of row `c`. Only `0 + x = x` is used of the extended reals.
-/
import proofs.«423744_j26207890440396_2_alg».proof.Proof.RefReadPatched
import proofs.«423744_j26207890440396_2_alg».proof.Proof.Spec
import Idealize.ShloMosaic.Lib.ReduceAll
import Idealize.ShloMosaic.Lib.IdealHost

noncomputable section

namespace Cert.ReferenceIdeal.RefValue

open Cert.ReferenceIdeal Cert.ReferenceIdeal.Gen Idealize.ShloMosaic Idealize.ShloMosaic.ValueIdx Idealize.ShloMosaic.StableHlo
open Cert.Segments
open scoped BigOperators

/-! ## Index bookkeeping at literal shapes -/

theorem idx_v2 (b : Fin 512) (v : Fin 32768) : ReadP.idx_main_v2 (ix2 b v) = ix3 b v 0 := by
  funext a
  match a with
  | ⟨0, _⟩ =>
    apply Fin.ext
    show (b.val * 32768 + v.val) / 32768 = b.val
    have := v.isLt; omega
  | ⟨1, _⟩ =>
    apply Fin.ext
    show (b.val * 32768 + v.val) / 1 % 32768 = v.val
    have := v.isLt; omega
  | ⟨2, _⟩ => rfl

theorem idx_v13 (b : Fin 512) (v : Fin 32768) : ReadP.idx_main_call0_v13 (ix3 b v 0) = ix2 b 0 := by
  funext a
  match a with
  | ⟨0, _⟩ => rfl
  | ⟨1, _⟩ => rfl

theorem idx_v0 (b : Fin 512) : ReadP.idx_main_v0 (ix3 b 0 0) = ix1 b := by
  funext a
  match a with
  | ⟨0, _⟩ => rfl

theorem idx_v6 (b : Fin 512) : ReadP.idx_main_v6 (ix2 b 0) = ix1 b := by
  funext a
  match a with
  | ⟨0, _⟩ => rfl

theorem idx_v10 (b : Fin 512) : ReadP.idx_main_v10 (ix2 b 0) = ix1 b := by
  funext a
  match a with
  | ⟨0, _⟩ => rfl

/-! ## A class's word against the range tests -/

theorem slt_zero : ∀ c : Fin 16, IntOp.cmpi .slt (cls c) 0#32 = 0#1 := by decide
theorem sge_zero : ∀ c : Fin 16, IntOp.cmpi .sge (cls c) 0#32 = 1#1 := by decide
theorem sle_fifteen : ∀ c : Fin 16, IntOp.cmpi .sle (cls c) 15#32 = 1#1 := by decide

/-- A fold by `and` from 1 over words that are all 1 is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, ih (fun i hi => hf i (Finset.mem_cons_of_mem hi)), hf a (Finset.mem_cons_self a S)]
    rfl

/-! ## The normalised label, the mask and the gathered weight at a sample of class `c` -/

/-- The label of a sample of class `c` is not negative, so normalising leaves it as it is. -/
theorem label_at (x2 : Vec Ideal S512 .i32) (b : Fin 512) (c : Fin 16) (h : x2 (ix1 b) = cls c) :
    ReadP.val_main_call0_v4 (F := Ideal) x2 (ix3 b 0 0) = cls c := by
  rw [ReadP.val_main_call0_v4_apply, ReadP.val_main_call0_v1_apply, ReadP.val_main_v0_apply, idx_v0, h,
    ReadP.val_main_call0_v0_apply, ReadP.val_main_call0_c_apply, slt_zero, select_zero]

/-- Over the unit axis every source index above `(b, 0)` is `(b, 0, 0)`. -/
theorem lift_unit (hr : S512x1x1.Reduces [2] S512x1) (b : Fin 512) (k : Fin (S512x1x1.size 2)) :
    hr.lift (ix2 b 0) k = ix3 b 0 0 := by
  funext a
  match a with
  | ⟨0, _⟩ => rfl
  | ⟨1, _⟩ => rfl
  | ⟨2, _⟩ =>
    apply Fin.ext
    show k.val = 0
    have : k.val < 1 := k.isLt
    omega

/-- The in-range mask of a sample of class `c` is true: both tests pass, and the reduction over the unit axis
    meets that one word. -/
theorem mask_at (x2 : Vec Ideal S512 .i32) (b : Fin 512) (c : Fin 16) (h : x2 (ix1 b) = cls c) :
    ReadP.val_main_call0_v11 (F := Ideal) x2 (ix2 b 0) = 1#1 := by
  unfold ReadP.val_main_call0_v11
  refine (Host.reduce_eq_fold_single IntOp.andi _ _ _ (by decide) _ (ix2 b 0)).trans ?_
  refine fold_andi_one _ _ (fun k _ => ?_)
  show ReadP.val_main_call0_v10 (F := Ideal) x2 (Shape.Reduces.lift _ (ix2 b 0) k) = 1#1
  rw [lift_unit _ b k, ReadP.val_main_call0_v10_apply, ReadP.val_main_call0_v6_apply, ReadP.val_main_call0_v9_apply,
    label_at x2 b c h, ReadP.val_main_call0_v5_apply, ReadP.val_main_call0_c_2_apply, ReadP.val_main_call0_v8_apply,
    ReadP.val_main_call0_v7_apply, ReadP.val_main_call0_c_1_apply, sge_zero, sle_fifteen]
  rfl

/-- The gather of the weights at a sample whose start index is class `c`'s word: sample `b`'s weight at column `v`
    for class `c` (the batching axis gives `b`, the offset axis `v`, the start index read signed and clamped `c`). -/
theorem gather_at {α : Type} (x1 : S512x32768x16.Idx → α) (idx : IVec S512x1x1 32) (b : Fin 512) (v : Fin 32768)
    (c : Fin 16) (h : idx (ix3 b 0 0) = cls c) :
    Host.gather gather_S512x32768x16_S512x1x1_S512x32768x1_1_2_0_0_2_2_1327681 x1 idx (ix3 b v 0) = x1 (ix3 b v c) := by
  unfold Host.gather
  refine congrArg x1 ?_
  funext a
  match a with
  | ⟨0, _⟩ =>
    apply Fin.ext
    show gather_S512x32768x16_S512x1x1_S512x32768x1_1_2_0_0_2_2_1327681.start (ix3 b v 0) idx 0
      + gather_S512x32768x16_S512x1x1_S512x32768x1_1_2_0_0_2_2_1327681.batchCoord (ix3 b v 0) 0
      + gather_S512x32768x16_S512x1x1_S512x32768x1_1_2_0_0_2_2_1327681.offCoord (ix3 b v 0) 0 = b.val
    rw [GatherDims.start_batching _ _ _ _ (by decide), GatherDims.offCoord_eq_zero _ _ _ (by decide), Nat.zero_add,
      Nat.add_zero]
    unfold GatherDims.batchCoord
    rw [dif_pos (by decide)]
    rfl
  | ⟨1, _⟩ =>
    apply Fin.ext
    show gather_S512x32768x16_S512x1x1_S512x32768x1_1_2_0_0_2_2_1327681.start (ix3 b v 0) idx 1
      + gather_S512x32768x16_S512x1x1_S512x32768x1_1_2_0_0_2_2_1327681.batchCoord (ix3 b v 0) 1
      + gather_S512x32768x16_S512x1x1_S512x32768x1_1_2_0_0_2_2_1327681.offCoord (ix3 b v 0) 1 = v.val
    rw [GatherDims.batchCoord_eq_zero _ _ _ (by decide)]
    unfold GatherDims.start GatherDims.offCoord
    rw [dif_neg (by decide), dif_pos (by decide), Nat.add_zero, Nat.zero_add]
    rfl
  | ⟨2, _⟩ =>
    apply Fin.ext
    show gather_S512x32768x16_S512x1x1_S512x32768x1_1_2_0_0_2_2_1327681.start (ix3 b v 0) idx 2
      + gather_S512x32768x16_S512x1x1_S512x32768x1_1_2_0_0_2_2_1327681.batchCoord (ix3 b v 0) 2
      + gather_S512x32768x16_S512x1x1_S512x32768x1_1_2_0_0_2_2_1327681.offCoord (ix3 b v 0) 2 = c.val
    rw [GatherDims.batchCoord_eq_zero _ _ _ (by decide), GatherDims.offCoord_eq_zero _ _ _ (by decide)]
    unfold GatherDims.start
    rw [dif_pos (by decide)]
    have hsi : gather_S512x32768x16_S512x1x1_S512x32768x1_1_2_0_0_2_2_1327681.siIdx (ix3 b v 0)
        ⟨List.idxOf (2 : Fin S512x32768x16.rank) gather_S512x32768x16_S512x1x1_S512x32768x1_1_2_0_0_2_2_1327681.startIndexMap,
          List.idxOf_lt_length_iff.2 (by decide)⟩ = ix3 b 0 0 := by
      funext a'
      match a' with
      | ⟨0, _⟩ => rfl
      | ⟨1, _⟩ => rfl
      | ⟨2, _⟩ => rfl
    rw [hsi, h, cls_toInt]
    show min ((c.val : Int)).toNat (16 - 1) + 0 + 0 = c.val
    have := c.isLt
    omega

/-- What the reference scatters from a sample of class `c` at column `v`: the magnitude of the activation times the
    weight for that class. -/
theorem v4_at (x0 : Vec Ideal S512x32768 .f32) (x1 : Vec Ideal S512x32768x16 .f32) (x2 : Vec Ideal S512 .i32)
    (b : Fin 512) (v : Fin 32768) (c : Fin 16) (h : x2 (ix1 b) = cls c) :
    ReadP.val_main_v4 (F := Ideal) x0 x1 x2 (ix2 b v) = mag (x0 (ix2 b v) * x1 (ix3 b v c)) := by
  rw [ReadP.val_main_v4_apply, ReadP.val_main_v3_apply, ReadP.val_main_v2_apply, idx_v2, ReadP.val_main_v1_apply,
    ReadP.val_main_call0_v13_apply, idx_v13, mask_at x2 b c h, select_one]
  unfold ReadP.val_main_call0_v12
  rw [gather_at x1 _ b v c (label_at x2 b c h)]
  rfl

/-! ## The two scatter-adds -/

/-- The scatter-add of the magnitudes along the labels is the per-class total. -/
theorem ref_sums (x0 : Vec Ideal S512x32768 .f32) (x1 : Vec Ideal S512x32768x16 .f32) (x2 : Vec Ideal S512 .i32) :
    ReadP.val_main_v7 (F := Ideal) x0 x1 x2 = Cert.Spec.sums x0 x1 x2 := by
  funext i
  obtain ⟨c, v, rfl⟩ : ∃ c v, i = ix2 c v := ⟨i 0, i 1, eq_ix2 i⟩
  rw [Cert.Spec.sums_apply]
  unfold ReadP.val_main_v7 Host.scatterAdd
  rw [Ideal.hostScatterAdd_def]
  unfold Ideal.hostScatterAdd
  have hz : ReadP.val_main_v5 (F := Ideal) (ix2 c v) = 0 := by
    rw [ReadP.val_main_v5_apply, ReadP.val_main_cst_apply]
    exact Ideal.ofBits_zero_f32
  rw [hz, zero_add]
  refine (scatter2_sum (ReadP.val_main_v6 (F := Ideal) x2) (ReadP.val_main_v4 (F := Ideal) x0 x1 x2) c v).trans ?_
  unfold Cert.Spec.sumsAt
  refine Finset.sum_congr rfl fun b _ => ?_
  rw [ReadP.val_main_v6_apply, idx_v6 b]
  by_cases h : x2 (ix1 b) = cls c
  · rw [if_pos h, if_pos h, v4_at x0 x1 x2 b v c h]
  · rw [if_neg h, if_neg h]

/-- The scatter-add of ones along the labels is the per-class count. -/
theorem ref_counts (x2 : Vec Ideal S512 .i32) : ReadP.val_main_v11 (F := Ideal) x2 = Cert.Spec.counts x2 := by
  funext i
  obtain ⟨c, rfl⟩ : ∃ c, i = ix1 c := ⟨i 0, eq_ix1 i⟩
  rw [Cert.Spec.counts_apply]
  unfold ReadP.val_main_v11 Host.scatterAdd
  rw [Ideal.hostScatterAdd_def]
  unfold Ideal.hostScatterAdd
  have hz : ReadP.val_main_v9 (F := Ideal) (ix1 c) = 0 := by
    rw [ReadP.val_main_v9_apply, ReadP.val_main_cst_1_apply]
    exact Ideal.ofBits_zero_f32
  rw [hz, zero_add]
  refine (scatter1_sum (ReadP.val_main_v10 (F := Ideal) x2) (ReadP.val_main_v8 (F := Ideal)) c).trans ?_
  unfold Cert.Spec.countAt
  refine Finset.sum_congr rfl fun b _ => ?_
  have ho : ReadP.val_main_v8 (F := Ideal) (ix1 b) = 1 := by
    rw [ReadP.val_main_v8_apply, ReadP.val_main_cst_0_apply]
    exact Ideal.ofBits_one_f32
  rw [ReadP.val_main_v10_apply, idx_v10 b, ho]
  rfl

end Cert.ReferenceIdeal.RefValue

end
-- ==== Proof.RefLast.lean ====
/-
  The reference's result as the common last steps of its totals and counts.

  After its two scatter-adds the reference applies, operation for operation, the same last steps as the kernel program:
  the result is that one function of the scatter-added totals and counts, the centroids and the initialised flags — by
  unfolding the stages — and the totals and counts are the specification's.
-/
import proofs.«423744_j26207890440396_2_alg».proof.Proof.RefSums
import proofs.«423744_j26207890440396_2_alg».proof.Proof.LastSteps

noncomputable section

namespace Cert.ReferenceIdeal.RefValue

open Cert.ReferenceIdeal Cert.ReferenceIdeal.Gen Idealize.ShloMosaic Idealize.ShloMosaic.TcCoe Idealize.SL.Sem

/-- The last stage is the common last steps of the two scatter-add stages. -/
theorem stage_eq (x0 : Vec Ideal S512x32768 .f32) (x1 : Vec Ideal S512x32768x16 .f32) (x2 : Vec Ideal S512 .i32)
    (x3 : Vec Ideal S16x32768 .f32) (x4 : Vec Ideal S16 .i1) :
    ReadP.val_main_v26 (F := Ideal) x0 x1 x2 x3 x4
      = Cert.KernelIdeal.Last.tail (ReadP.val_main_v7 (F := Ideal) x0 x1 x2) (ReadP.val_main_v11 (F := Ideal) x2) x3 x4 := rfl

/-- The reference's result: the common last steps of the specification's totals and counts. -/
theorem result_eq (m : (ℓ : Loc nD τ sig) → Buf (Elt Ideal) ℓ) (c : Dev nD) :
    Cert.ReferenceIdeal.ValueP.res_main_v26 (F := Ideal) m c
      = Cert.KernelIdeal.Last.tail
          (Cert.Spec.sums (m ((c.tc : Thread nD τ).loc main_arg0)) (m ((c.tc : Thread nD τ).loc main_arg1))
            (m ((c.tc : Thread nD τ).loc main_arg2)))
          (Cert.Spec.counts (m ((c.tc : Thread nD τ).loc main_arg2)))
          (m ((c.tc : Thread nD τ).loc main_arg3)) (m ((c.tc : Thread nD τ).loc main_arg4)) := by
  rw [ReadP.val_main_v26_eq, stage_eq, ref_sums, ref_counts]

end Cert.ReferenceIdeal.RefValue
end
-- ==== Proof.lean ====
/-
  A per-class running mean of attribution magnitudes: the Pallas kernel program against its jnp reference.

  For 512 samples, 32768 columns and 16 classes both programs form, per class `c` and column `v`, the TOTAL over the samples
  whose label is class `c` of the magnitude of the sample's activation at `v` times its weight at `v` for class `c`, and
  the COUNT of such samples; then both apply the same last steps (the mean over max(count, 1); a fixed-fraction move of an
  initialised centroid towards the mean, else the mean; a class with no sample keeps its centroid).

  * The kernel picks samples by a one-hot row: over a grid of 256 column blocks times 2 sample blocks it accumulates, in a
    scratch block zeroed at a column block's first point and copied out at its second, the one-hot matrix contracted
    against |activation x (weights contracted with the one-hot row)|; the host part counts by adding up the one-hot matrix.
  * The reference gathers each sample's own-class weight and scatter-adds rows, and ones, along the labels; a label that
    is no class lands nowhere.

  The two agree because a one-hot row keeps exactly the sample's own class (1 * x = x, 0 * x = 0, 0 + x = x over the
  extended reals, and a finite sum may be split and reordered): no finiteness of the inputs is used. Both results are ONE
  function (the last steps) of equal totals and counts, and that function is never opened.

  The three frames: the kernel programs' are the generated ones; the reference has no kernel, and its frame is its run with
  the result dropped. The idealization rewrote no operation, so `preserves` holds trivially.
-/
import proofs.«423744_j26207890440396_2_alg».proof.Defs
import proofs.«423744_j26207890440396_2_alg».proof.Proof.Gen.Kernel
import proofs.«423744_j26207890440396_2_alg».proof.Proof.Gen.Kernel.Skeleton
import proofs.«423744_j26207890440396_2_alg».proof.Proof.Gen.Kernel.Launch
import proofs.«423744_j26207890440396_2_alg».proof.Proof.Gen.Kernel.Points
import proofs.«423744_j26207890440396_2_alg».proof.Proof.Gen.Kernel.Frame
import proofs.«423744_j26207890440396_2_alg».proof.Proof.Gen.KernelIdeal
import proofs.«423744_j26207890440396_2_alg».proof.Proof.Gen.KernelIdeal.Skeleton
import proofs.«423744_j26207890440396_2_alg».proof.Proof.Gen.KernelIdeal.Launch
import proofs.«423744_j26207890440396_2_alg».proof.Proof.Gen.KernelIdeal.Points
import proofs.«423744_j26207890440396_2_alg».proof.Proof.Gen.KernelIdeal.Frame
import proofs.«423744_j26207890440396_2_alg».proof.Proof.Gen.ReferenceIdeal
import proofs.«423744_j26207890440396_2_alg».proof.Proof.Gen.Pre_finite_inputs
import proofs.«423744_j26207890440396_2_alg».proof.Proof.RefRunPatched
import proofs.«423744_j26207890440396_2_alg».proof.Proof.RefReadPatched
import proofs.«423744_j26207890440396_2_alg».proof.Proof.KernelTail
import proofs.«423744_j26207890440396_2_alg».proof.Proof.RefLast
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.ValueP.run (F := Ideal) m ρ),
  trivial,
  fun m ρ m' ρ' _ hagree =>
    ⟨fun c => Cert.KernelIdeal.Last.tail
        (Cert.Spec.sums (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (Cert.Spec.counts (m ((c.tc : Thread Cert.KernelIdeal.nD Cert.KernelIdeal.τ).loc Cert.KernelIdeal.main_arg2)))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      Cert.KernelIdeal.HostTail.run m ρ,
      (θ_run Cert.ReferenceIdeal.defs _ _).mono (fun _ h c =>
        ⟨by rw [(h c).1, Cert.ReferenceIdeal.RefValue.result_eq, (hagree c).1, (hagree c).2.1, (hagree c).2.2.1,
            (hagree c).2.2.2.1, (hagree c).2.2.2.2], (h c).2⟩)
        (Cert.ReferenceIdeal.ValueP.run (F := Ideal) m' ρ')⟩⟩

end Cert.Proof

end
